-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x3 : Shape := ⟨2, ![800000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128 .f32) (main_arg14 : FVec F S128x1 .f32) (main_arg15 : FVec F S128x128 .f32) (main_arg16 : FVec F S128 .f32) (main_arg17 : FVec F S128x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : FVec F S800000x3 .f32) (main_arg2 : IVec S800000 32) (main_arg3 : IVec S800000 32) (main_arg4 : FVec F S257x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x128 .f32) (main_arg16 : FVec F S128 .f32) (main_arg17 : FVec F S128x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg1
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S257x128 .f32 := Host.absf main_arg4
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S800000x3 : Shape := ⟨2, ![800000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S800000x4 : Shape := ⟨2, ![800000, 4]⟩
abbrev S50000x4 : Shape := ⟨2, ![50000, 4]⟩
abbrev S50000x3 : Shape := ⟨2, ![50000, 3]⟩
abbrev S50000x1 : Shape := ⟨2, ![50000, 1]⟩
abbrev S2000x128 : Shape := ⟨2, ![2000, 128]⟩
abbrev S2000x3 : Shape := ⟨2, ![2000, 3]⟩
abbrev S2000x1 : Shape := ⟨2, ![2000, 1]⟩
abbrev S1x1 : Shape := ⟨2, ![1, 1]⟩

abbrev nBuf : Space → Nat
  | .hbm => 60
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S800000x128, .f32⟩
  | .hbm, ⟨41, _⟩ => ⟨S800000x3, .f32⟩
  | .hbm, ⟨42, _⟩ => ⟨S_, .f32⟩
  | .hbm, ⟨43, _⟩ => ⟨S800000x1, .f32⟩
  | .hbm, ⟨44, _⟩ => ⟨S800000x4, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S50000x4, .f32⟩
  | .hbm, ⟨51, _⟩ => ⟨S800000x1, .i32⟩
  | .hbm, ⟨52, _⟩ => ⟨S50000x4, .f32⟩
  | .hbm, ⟨53, _⟩ => ⟨S50000x3, .f32⟩
  | .hbm, ⟨54, _⟩ => ⟨S50000x1, .f32⟩
  | .hbm, ⟨55, _⟩ => ⟨S128x128, .f32⟩
  | .hbm, ⟨56, _⟩ => ⟨S128x128, .f32⟩
  | .hbm, ⟨57, _⟩ => ⟨S50000x1, .f32⟩
  | .hbm, ⟨58, _⟩ => ⟨S50000x3, .f32⟩
  | .hbm, ⟨59, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x1, .f32⟩
  | .local _ .vmem, ⟨15, _⟩ => ⟨S4000x128, .f32⟩
  | .local _ .vmem, ⟨16, _⟩ => ⟨S4000x128, .f32⟩
  | .local _ .vmem, ⟨17, _⟩ => ⟨S4000x3, .f32⟩
  | .local _ .vmem, ⟨18, _⟩ => ⟨S4000x3, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x3, .f32⟩
  | .local _ .vmem, ⟨24, _⟩ => ⟨S2000x3, .f32⟩
  | .local _ .vmem, ⟨25, _⟩ => ⟨S2000x1, .f32⟩
  | .local _ .vmem, ⟨26, _⟩ => ⟨S2000x1, .f32⟩
  | .local _ .vmem, ⟨27, _⟩ => ⟨S128x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x1, .f32⟩
  | .local _ .vmem, ⟨35, _⟩ => ⟨S1, .f32⟩
  | .local _ .vmem, ⟨36, _⟩ => ⟨S2000x1, .f32⟩
  | .local _ .vmem, ⟨37, _⟩ => ⟨S2000x1, .f32⟩
  | .local _ .vmem, ⟨38, _⟩ => ⟨S2000x3, .f32⟩
  | .local _ .vmem, ⟨39, _⟩ => ⟨S2000x3, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem15_1 : DmaSem sig := 41

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S2000x3 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  reduces_S4000x3_S4000 : S4000x3.Reduces [1] S4000
  shapeCasts_S4000_S4000x1 : S4000.ShapeCasts S4000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  broadcasts_S4000x1_S4000x3 : S4000x1.Broadcasts S4000x3
  bcast_S_S800000x1 : S_.BroadcastsInDim S800000x1 (![] : Fin 0 → Fin S800000x1.rank)
  concatenates_S800000x3_S800000x1_S800000x4_d1 : Shape.Concatenates [S800000x3, S800000x1] S800000x4 1
  bcast_S_S50000x128 : S_.BroadcastsInDim S50000x128 (![] : Fin 0 → Fin S50000x128.rank)
  bcast_S_S50000x4 : S_.BroadcastsInDim S50000x4 (![] : Fin 0 → Fin S50000x4.rank)
  slices_S50000x4_S50000x3_0_0 : S50000x4.Slices ![0, 0] S50000x3
  slices_S50000x4_S50000x1_0_3 : S50000x4.Slices ![0, 3] S50000x1
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  shapeCasts_S2000x1_S2000x1 : S2000x1.ShapeCasts S2000x1
  broadcasts_S2000x1_S2000x3 : S2000x1.Broadcasts S2000x3
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  scatter_S50000x4_S800000x1_S800000x4_1_0_0_1_wf : ScatterDims.WF S50000x4 S800000x1 S800000x4 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S800000x128.size a
  hwx0_12 : ∀ i : grid0.Coords, EltTy.bits .f32 = 32 ∨ (Rect.block (s := S800000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S800000x3.size a
  hwx0_13 : ∀ i : grid0.Coords, EltTy.bits .f32 = 32 ∨ (Rect.block (s := S800000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S128x1.size a
  hwx1_11 : ∀ i : grid1.Coords, EltTy.bits .f32 = 32 ∨ (Rect.block (s := S128x1) S128x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1.size a ≤ S1.size a
  hwx1_12 : ∀ i : grid1.Coords, EltTy.bits .f32 = 32 ∨ (Rect.block (s := S1) S1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S50000x1.size a
  hwx1_13 : ∀ i : grid1.Coords, EltTy.bits .f32 = 32 ∨ (Rect.block (s := S50000x1) S2000x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x3.size a ≤ S50000x3.size a
  hwx1_14 : ∀ i : grid1.Coords, EltTy.bits .f32 = 32 ∨ (Rect.block (s := S50000x3) S2000x3.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S50000x128.size a
  hwx1_15 : ∀ i : grid1.Coords, EltTy.bits .f32 = 32 ∨ (Rect.block (s := S50000x128) S2000x128.size (cc1_transform_15 i) (hinb1_15 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v17_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S128x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v30_0) S2000x1.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v30_1) S2000x3.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v30_2) S2000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x3 : Shape := ⟨2, ![800000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S800000x257 : Shape := ⟨2, ![800000, 257]⟩
abbrev S1x128 : Shape := ⟨2, ![1, 128]⟩
abbrev S50000x3 : Shape := ⟨2, ![50000, 3]⟩
abbrev S50000x1 : Shape := ⟨2, ![50000, 1]⟩
abbrev S50000x256 : Shape := ⟨2, ![50000, 256]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S800000x3, .f32⟩
  | 2 => ⟨S800000, .i32⟩
  | 3 => ⟨S800000, .i32⟩
  | 4 => ⟨S257x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S128x128, .f32⟩
  | 16 => ⟨S128, .f32⟩
  | 17 => ⟨S128x1, .f32⟩
  | 18 => ⟨S1, .f32⟩
  | 19 => ⟨S800000x3, .f32⟩
  | 20 => ⟨S_, .f32⟩
  | 21 => ⟨S800000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x257, .f32⟩
  | 42 => ⟨S800000x128, .f32⟩
  | 43 => ⟨S1x128, .f32⟩
  | 44 => ⟨S800000x128, .f32⟩
  | 45 => ⟨S800000x128, .f32⟩
  | 46 => ⟨S800000x128, .f32⟩
  | 47 => ⟨S800000x128, .f32⟩
  | 48 => ⟨S_, .f32⟩
  | 49 => ⟨S800000x128, .f32⟩
  | 50 => ⟨S800000x128, .f32⟩
  | 51 => ⟨S_, .f32⟩
  | 52 => ⟨S800000x128, .f32⟩
  | 53 => ⟨S800000x128, .f32⟩
  | 54 => ⟨S800000x128, .f32⟩
  | 55 => ⟨S800000x128, .f32⟩
  | 56 => ⟨S1x128, .f32⟩
  | 57 => ⟨S800000x128, .f32⟩
  | 58 => ⟨S800000x128, .f32⟩
  | 59 => ⟨S800000x128, .f32⟩
  | 60 => ⟨S800000x128, .f32⟩
  | 61 => ⟨S_, .f32⟩
  | 62 => ⟨S800000x128, .f32⟩
  | 63 => ⟨S800000x128, .f32⟩
  | 64 => ⟨S_, .f32⟩
  | 65 => ⟨S800000x128, .f32⟩
  | 66 => ⟨S800000x128, .f32⟩
  | 67 => ⟨S800000x128, .f32⟩
  | 68 => ⟨S800000x128, .f32⟩
  | 69 => ⟨S1x128, .f32⟩
  | 70 => ⟨S800000x128, .f32⟩
  | 71 => ⟨S800000x128, .f32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S_, .f32⟩
  | 78 => ⟨S800000x128, .f32⟩
  | 79 => ⟨S800000x128, .f32⟩
  | 80 => ⟨S800000x128, .f32⟩
  | 81 => ⟨S800000x1, .f32⟩
  | 82 => ⟨S800000x3, .f32⟩
  | 83 => ⟨S800000x3, .f32⟩
  | 84 => ⟨S_, .f32⟩
  | 85 => ⟨S_, .f32⟩
  | 86 => ⟨S_, .f32⟩
  | 87 => ⟨S800000x3, .f32⟩
  | 88 => ⟨S800000x3, .f32⟩
  | 89 => ⟨S_, .f32⟩
  | 90 => ⟨S800000x3, .f32⟩
  | 91 => ⟨S800000x3, .f32⟩
  | 92 => ⟨S_, .f32⟩
  | 93 => ⟨S50000x3, .f32⟩
  | 94 => ⟨S800000x1, .i32⟩
  | 95 => ⟨S50000x3, .f32⟩
  | 96 => ⟨S_, .f32⟩
  | 97 => ⟨S800000x1, .f32⟩
  | 98 => ⟨S_, .f32⟩
  | 99 => ⟨S50000x1, .f32⟩
  | 100 => ⟨S800000x1, .i32⟩
  | 101 => ⟨S50000x1, .f32⟩
  | 102 => ⟨S_, .f32⟩
  | 103 => ⟨S_, .f32⟩
  | 104 => ⟨S50000x1, .f32⟩
  | 105 => ⟨S50000x1, .f32⟩
  | 106 => ⟨S50000x3, .f32⟩
  | 107 => ⟨S50000x3, .f32⟩
  | 108 => ⟨S_, .f32⟩
  | 109 => ⟨S50000x128, .f32⟩
  | 110 => ⟨S800000x1, .i32⟩
  | 111 => ⟨S50000x128, .f32⟩
  | 112 => ⟨S50000x256, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S50000x1, .f32⟩
  | 16 => ⟨S1x1, .f32⟩
  | 17 => ⟨S50000x1, .f32⟩
  | 18 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_3 : Ref sig .tc := ⟨.hbm, 84, rfl⟩
abbrev main_cst_4 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v36 : Ref sig .tc := ⟨.hbm, 91, rfl⟩
abbrev main_cst_5 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_6 : Ref sig .tc := ⟨.hbm, 96, rfl⟩
abbrev main_v40 : Ref sig .tc := ⟨.hbm, 97, rfl⟩
abbrev main_cst_7 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_8 : Ref sig .tc := ⟨.hbm, 102, rfl⟩
abbrev main_call4_v0 : Ref sig .tc := ⟨.hbm, 103, rfl⟩
abbrev main_call4_v1 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_9 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_call5_v0 : Ref sig .tc := ⟨.hbm, 117, rfl⟩
abbrev main_call5_v1 : Ref sig .tc := ⟨.hbm, 118, rfl⟩
abbrev main_call5_cst : Ref sig .tc := ⟨.hbm, 119, rfl⟩
abbrev main_call5_v2 : Ref sig .tc := ⟨.hbm, 120, rfl⟩
abbrev main_call5_v3 : Ref sig .tc := ⟨.hbm, 121, rfl⟩
abbrev main_call5_cst_0 : Ref sig .tc := ⟨.hbm, 122, rfl⟩
abbrev main_call5_v4 : Ref sig .tc := ⟨.hbm, 123, rfl⟩
abbrev main_call5_v5 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩

abbrev nD : Nat := 1
abbrev τ : Topo := Topo.v7x

variable {F : FTy → Type} [FloatOps F]

class Facts₀ : Prop where
  reducesTo_S800000x3_S800000_d1 : S800000x3.ReducesTo [1] S800000
  h_S_ : 0 < S_.numel
  bcast_S800000_S800000x1_0 : S800000.BroadcastsInDim S800000x1 (![0] : Fin 1 → Fin S800000x1.rank)
  bcast_S_S800000 : S_.BroadcastsInDim S800000 (![] : Fin 0 → Fin S800000.rank)
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KHost.lean ====
/-
  What the two kernel regions are entered with, in terms of the launch memory.

  @main is four stretches: host operations, the edge region, host operations, the node region. Before the edge
  region the host gathers the feature rows of each edge's two endpoints (the row number wrapped once if negative,
  then clamped by the gather) and cuts the first edge weight into its two 128-row blocks and its last row; every
  other input of the region is an argument no operation has written. Between the regions the host scatter-adds the
  edge region's message array into a zero array at the edges' row numbers, scatter-adds the translations joined with
  a column of ones, cuts that sum into its first three columns and its last, and cuts the node weight into its two
  blocks; the arguments are still as launched, because a region returns its input arrays as it found them.
-/
import proofs.«117344_j13692355739802_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- A buffer none of a stretch's operations writes holds after the stretch what it held before. -/
macro "unwritten" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- The column of row numbers a gather takes: a negative number wrapped once by the table's 50000 rows. -/
def wrapCol (x : (⟨S800000, .i32⟩ : BufTy).Contents (Elt F)) : (⟨S800000x1, .i32⟩ : BufTy).Contents (Elt F) :=
  broadcastInDim S800000x1 ![0] bcast_S800000_S800000x1_0
    (select (cmpi CmpIPredicate.slt x (broadcastInDim S800000 ![] bcast_S_S800000 (constantI S_ 32 0#32)))
      (addi x (broadcastInDim S800000 ![] bcast_S_S800000 (constantI S_ 32 50000#32))) x)

/-- The column of row numbers a segment sum takes: the numbers as they are. -/
def rawCol (x : (⟨S800000, .i32⟩ : BufTy).Contents (Elt F)) : (⟨S800000x1, .i32⟩ : BufTy).Contents (Elt F) :=
  broadcastInDim S800000x1 ![0] bcast_S800000_S800000x1_0 x

/-! ## Entering the edge region -/

theorem V1_arg1 (c : Dev nD) : V1 m ρ c main_arg1 = m ((c : Thread nD τ).loc main_arg1) := by
  show StableHlo.after hostOps0 (W0 m ρ c) (Proc.devRef .tc main_arg1) = _
  refine Eq.trans ?_ (rfl : W0 m ρ c (Proc.devRef .tc main_arg1) = _)
  unwritten hostOps0
theorem V1_arg5 (c : Dev nD) : V1 m ρ c main_arg5 = m ((c : Thread nD τ).loc main_arg5) := by
  show StableHlo.after hostOps0 (W0 m ρ c) (Proc.devRef .tc main_arg5) = _
  refine Eq.trans ?_ (rfl : W0 m ρ c (Proc.devRef .tc main_arg5) = _)
  unwritten hostOps0
theorem V1_arg6 (c : Dev nD) : V1 m ρ c main_arg6 = m ((c : Thread nD τ).loc main_arg6) := by
  show StableHlo.after hostOps0 (W0 m ρ c) (Proc.devRef .tc main_arg6) = _
  refine Eq.trans ?_ (rfl : W0 m ρ c (Proc.devRef .tc main_arg6) = _)
  unwritten hostOps0
theorem V1_arg7 (c : Dev nD) : V1 m ρ c main_arg7 = m ((c : Thread nD τ).loc main_arg7) := by
  show StableHlo.after hostOps0 (W0 m ρ c) (Proc.devRef .tc main_arg7) = _
  refine Eq.trans ?_ (rfl : W0 m ρ c (Proc.devRef .tc main_arg7) = _)
  unwritten hostOps0
theorem V1_arg12 (c : Dev nD) : V1 m ρ c main_arg12 = m ((c : Thread nD τ).loc main_arg12) := by
  show StableHlo.after hostOps0 (W0 m ρ c) (Proc.devRef .tc main_arg12) = _
  refine Eq.trans ?_ (rfl : W0 m ρ c (Proc.devRef .tc main_arg12) = _)
  unwritten hostOps0
theorem V1_arg13 (c : Dev nD) : V1 m ρ c main_arg13 = m ((c : Thread nD τ).loc main_arg13) := by
  show StableHlo.after hostOps0 (W0 m ρ c) (Proc.devRef .tc main_arg13) = _
  refine Eq.trans ?_ (rfl : W0 m ρ c (Proc.devRef .tc main_arg13) = _)
  unwritten hostOps0
theorem V1_arg14 (c : Dev nD) : V1 m ρ c main_arg14 = m ((c : Thread nD τ).loc main_arg14) := by
  show StableHlo.after hostOps0 (W0 m ρ c) (Proc.devRef .tc main_arg14) = _
  refine Eq.trans ?_ (rfl : W0 m ρ c (Proc.devRef .tc main_arg14) = _)
  unwritten hostOps0

/-- The gathered rows of each edge's first endpoint. -/
theorem V1_v6 (c : Dev nD) : V1 m ρ c main_v6
    = Host.gather gather_S50000x128_S800000x1_S800000x128_1_0_n_n_0_1_1128 (m ((c : Thread nD τ).loc main_arg0))
        (wrapCol (m ((c : Thread nD τ).loc main_arg2))) := by
  unfold wrapCol
  show StableHlo.after hostOps0 (W0 m ρ c) (Proc.devRef .tc main_v6) = _
  after_results <;> rfl
set_option maxHeartbeats 1600000 in
/-- The gathered rows of each edge's second endpoint. -/
theorem V1_v13 (c : Dev nD) : V1 m ρ c main_v13
    = Host.gather gather_S50000x128_S800000x1_S800000x128_1_0_n_n_0_1_1128 (m ((c : Thread nD τ).loc main_arg0))
        (wrapCol (m ((c : Thread nD τ).loc main_arg3))) := by
  unfold wrapCol
  show StableHlo.after hostOps0 (W0 m ρ c) (Proc.devRef .tc main_v13) = _
  after_results <;> rfl
/-- Rows 0 … 127 of the first edge weight. -/
theorem V1_v14 (c : Dev nD) : V1 m ρ c main_v14
    = extractStridedSlice S128x128 ![0, 0] (m ((c : Thread nD τ).loc main_arg4)) slices_S257x128_S128x128_0_0 := by
  show StableHlo.after hostOps0 (W0 m ρ c) (Proc.devRef .tc main_v14) = _
  after_results <;> rfl
/-- Rows 128 … 255 of the first edge weight. -/
theorem V1_v15 (c : Dev nD) : V1 m ρ c main_v15
    = extractStridedSlice S128x128 ![128, 0] (m ((c : Thread nD τ).loc main_arg4)) slices_S257x128_S128x128_128_0 := by
  show StableHlo.after hostOps0 (W0 m ρ c) (Proc.devRef .tc main_v15) = _
  after_results <;> rfl
/-- Row 256 of the first edge weight. -/
theorem V1_v16 (c : Dev nD) : V1 m ρ c main_v16
    = extractStridedSlice S1x128 ![256, 0] (m ((c : Thread nD τ).loc main_arg4)) slices_S257x128_S1x128_256_0 := by
  show StableHlo.after hostOps0 (W0 m ρ c) (Proc.devRef .tc main_v16) = _
  after_results <;> rfl

/-! ## Leaving the edge region: the arguments it does not stage are untouched -/

theorem W2_arg0 (c : Dev nD) : W2 m ρ c (Proc.devRef .tc main_arg0) = m ((c : Thread nD τ).loc main_arg0) := by
  refine (W2_of_ne m ρ c main_arg0 (by decide)).trans ?_
  refine Eq.trans ?_ (rfl : W0 m ρ c (Proc.devRef .tc main_arg0) = _)
  unwritten hostOps0
theorem W2_arg2 (c : Dev nD) : W2 m ρ c (Proc.devRef .tc main_arg2) = m ((c : Thread nD τ).loc main_arg2) := by
  refine (W2_of_ne m ρ c main_arg2 (by decide)).trans ?_
  refine Eq.trans ?_ (rfl : W0 m ρ c (Proc.devRef .tc main_arg2) = _)
  unwritten hostOps0
theorem W2_arg8 (c : Dev nD) : W2 m ρ c (Proc.devRef .tc main_arg8) = m ((c : Thread nD τ).loc main_arg8) := by
  refine (W2_of_ne m ρ c main_arg8 (by decide)).trans ?_
  refine Eq.trans ?_ (rfl : W0 m ρ c (Proc.devRef .tc main_arg8) = _)
  unwritten hostOps0
theorem W2_arg9 (c : Dev nD) : W2 m ρ c (Proc.devRef .tc main_arg9) = m ((c : Thread nD τ).loc main_arg9) := by
  refine (W2_of_ne m ρ c main_arg9 (by decide)).trans ?_
  refine Eq.trans ?_ (rfl : W0 m ρ c (Proc.devRef .tc main_arg9) = _)
  unwritten hostOps0
theorem W2_arg10 (c : Dev nD) : W2 m ρ c (Proc.devRef .tc main_arg10) = m ((c : Thread nD τ).loc main_arg10) := by
  refine (W2_of_ne m ρ c main_arg10 (by decide)).trans ?_
  refine Eq.trans ?_ (rfl : W0 m ρ c (Proc.devRef .tc main_arg10) = _)
  unwritten hostOps0
theorem W2_arg11 (c : Dev nD) : W2 m ρ c (Proc.devRef .tc main_arg11) = m ((c : Thread nD τ).loc main_arg11) := by
  refine (W2_of_ne m ρ c main_arg11 (by decide)).trans ?_
  refine Eq.trans ?_ (rfl : W0 m ρ c (Proc.devRef .tc main_arg11) = _)
  unwritten hostOps0
theorem W2_arg15 (c : Dev nD) : W2 m ρ c (Proc.devRef .tc main_arg15) = m ((c : Thread nD τ).loc main_arg15) := by
  refine (W2_of_ne m ρ c main_arg15 (by decide)).trans ?_
  refine Eq.trans ?_ (rfl : W0 m ρ c (Proc.devRef .tc main_arg15) = _)
  unwritten hostOps0
theorem W2_arg16 (c : Dev nD) : W2 m ρ c (Proc.devRef .tc main_arg16) = m ((c : Thread nD τ).loc main_arg16) := by
  refine (W2_of_ne m ρ c main_arg16 (by decide)).trans ?_
  refine Eq.trans ?_ (rfl : W0 m ρ c (Proc.devRef .tc main_arg16) = _)
  unwritten hostOps0
theorem W2_arg17 (c : Dev nD) : W2 m ρ c (Proc.devRef .tc main_arg17) = m ((c : Thread nD τ).loc main_arg17) := by
  refine (W2_of_ne m ρ c main_arg17 (by decide)).trans ?_
  refine Eq.trans ?_ (rfl : W0 m ρ c (Proc.devRef .tc main_arg17) = _)
  unwritten hostOps0
theorem W2_arg18 (c : Dev nD) : W2 m ρ c (Proc.devRef .tc main_arg18) = m ((c : Thread nD τ).loc main_arg18) := by
  refine (W2_of_ne m ρ c main_arg18 (by decide)).trans ?_
  refine Eq.trans ?_ (rfl : W0 m ρ c (Proc.devRef .tc main_arg18) = _)
  unwritten hostOps0

/-! ## Entering the node region -/

theorem V3_arg0 (c : Dev nD) : V3 m ρ c main_arg0 = m ((c : Thread nD τ).loc main_arg0) := by
  show StableHlo.after hostOps1 (W2 m ρ c) (Proc.devRef .tc main_arg0) = _
  refine Eq.trans ?_ (W2_arg0 m ρ c)
  unwritten hostOps1
theorem V3_arg9 (c : Dev nD) : V3 m ρ c main_arg9 = m ((c : Thread nD τ).loc main_arg9) := by
  show StableHlo.after hostOps1 (W2 m ρ c) (Proc.devRef .tc main_arg9) = _
  refine Eq.trans ?_ (W2_arg9 m ρ c)
  unwritten hostOps1
theorem V3_arg10 (c : Dev nD) : V3 m ρ c main_arg10 = m ((c : Thread nD τ).loc main_arg10) := by
  show StableHlo.after hostOps1 (W2 m ρ c) (Proc.devRef .tc main_arg10) = _
  refine Eq.trans ?_ (W2_arg10 m ρ c)
  unwritten hostOps1
theorem V3_arg11 (c : Dev nD) : V3 m ρ c main_arg11 = m ((c : Thread nD τ).loc main_arg11) := by
  show StableHlo.after hostOps1 (W2 m ρ c) (Proc.devRef .tc main_arg11) = _
  refine Eq.trans ?_ (W2_arg11 m ρ c)
  unwritten hostOps1
theorem V3_arg15 (c : Dev nD) : V3 m ρ c main_arg15 = m ((c : Thread nD τ).loc main_arg15) := by
  show StableHlo.after hostOps1 (W2 m ρ c) (Proc.devRef .tc main_arg15) = _
  refine Eq.trans ?_ (W2_arg15 m ρ c)
  unwritten hostOps1
theorem V3_arg16 (c : Dev nD) : V3 m ρ c main_arg16 = m ((c : Thread nD τ).loc main_arg16) := by
  show StableHlo.after hostOps1 (W2 m ρ c) (Proc.devRef .tc main_arg16) = _
  refine Eq.trans ?_ (W2_arg16 m ρ c)
  unwritten hostOps1
theorem V3_arg17 (c : Dev nD) : V3 m ρ c main_arg17 = m ((c : Thread nD τ).loc main_arg17) := by
  show StableHlo.after hostOps1 (W2 m ρ c) (Proc.devRef .tc main_arg17) = _
  refine Eq.trans ?_ (W2_arg17 m ρ c)
  unwritten hostOps1
theorem V3_arg18 (c : Dev nD) : V3 m ρ c main_arg18 = m ((c : Thread nD τ).loc main_arg18) := by
  show StableHlo.after hostOps1 (W2 m ρ c) (Proc.devRef .tc main_arg18) = _
  refine Eq.trans ?_ (W2_arg18 m ρ c)
  unwritten hostOps1

/-- The summed incoming messages: the edge region's message array scatter-added at the edges' row numbers. -/
theorem V3_v22 (c : Dev nD) : V3 m ρ c main_v22
    = Host.scatterAdd scatter_S50000x128_S800000x1_S800000x128_1_0_0_1
        (broadcastInDim S50000x128 ![] bcast_S_S50000x128 (constant S_ .f32 0x00000000#32))
        (rawCol (m ((c : Thread nD τ).loc main_arg2))) ((dat0 (V1 m ρ) c).arrAt 12 cfg0.N) := by
  unfold rawCol
  show StableHlo.after hostOps1 (W2 m ρ c) (Proc.devRef .tc main_v22) = _
  after_results
  rw [W2_arg2 m ρ c, (W2_arr m ρ c 12 : W2 m ρ c (Proc.devRef .tc main_v17_0) = _)]
  try rfl

/-- The translations joined with a column of ones, scatter-added at the edges' row numbers. -/
def fusedSum (idx : (⟨S800000x1, .i32⟩ : BufTy).Contents (Elt F)) (T : (⟨S800000x3, .f32⟩ : BufTy).Contents (Elt F)) :
    (⟨S50000x4, .f32⟩ : BufTy).Contents (Elt F) :=
  Host.scatterAdd scatter_S50000x4_S800000x1_S800000x4_1_0_0_1
    (broadcastInDim S50000x4 ![] bcast_S_S50000x4 (constant S_ .f32 0x00000000#32)) idx
    (concatenate S800000x4 1 [⟨S800000x3, T⟩,
      ⟨S800000x1, broadcastInDim S800000x1 ![] bcast_S_S800000x1 (constant S_ .f32 0x3F800000#32)⟩]
      concatenates_S800000x3_S800000x1_S800000x4_d1)

/-- The summed translations: columns 0 … 2 of the fused sum. -/
theorem V3_v26 (c : Dev nD) : V3 m ρ c main_v26
    = extractStridedSlice S50000x3 ![0, 0]
        (fusedSum (rawCol (m ((c : Thread nD τ).loc main_arg2))) ((dat0 (V1 m ρ) c).arrAt 13 cfg0.N))
        slices_S50000x4_S50000x3_0_0 := by
  unfold fusedSum rawCol
  show StableHlo.after hostOps1 (W2 m ρ c) (Proc.devRef .tc main_v26) = _
  after_results
  rw [W2_arg2 m ρ c, (W2_arr m ρ c 13 : W2 m ρ c (Proc.devRef .tc main_v17_1) = _)]
  try rfl
/-- The in-degrees: column 3 of the fused sum. -/
theorem V3_v27 (c : Dev nD) : V3 m ρ c main_v27
    = extractStridedSlice S50000x1 ![0, 3]
        (fusedSum (rawCol (m ((c : Thread nD τ).loc main_arg2))) ((dat0 (V1 m ρ) c).arrAt 13 cfg0.N))
        slices_S50000x4_S50000x1_0_3 := by
  unfold fusedSum rawCol
  show StableHlo.after hostOps1 (W2 m ρ c) (Proc.devRef .tc main_v27) = _
  after_results
  rw [W2_arg2 m ρ c, (W2_arr m ρ c 13 : W2 m ρ c (Proc.devRef .tc main_v17_1) = _)]
  try rfl
/-- Rows 0 … 127 of the node weight. -/
theorem V3_v28 (c : Dev nD) : V3 m ρ c main_v28
    = extractStridedSlice S128x128 ![0, 0] (m ((c : Thread nD τ).loc main_arg8)) slices_S256x128_S128x128_0_0 := by
  show StableHlo.after hostOps1 (W2 m ρ c) (Proc.devRef .tc main_v28) = _
  after_results
  rw [W2_arg8 m ρ c]
/-- Rows 128 … 255 of the node weight. -/
theorem V3_v29 (c : Dev nD) : V3 m ρ c main_v29
    = extractStridedSlice S128x128 ![128, 0] (m ((c : Thread nD τ).loc main_arg8)) slices_S256x128_S128x128_128_0 := by
  show StableHlo.after hostOps1 (W2 m ρ c) (Proc.devRef .tc main_v29) = _
  after_results
  rw [W2_arg8 m ρ c]

end Cert.KernelIdeal.HostValue

end
-- ==== Proof.Spec.lean ====
/-
  The layer as mathematics, over the extended reals, with no program in sight.

  One message-passing step on a graph with `E` edges and `N` nodes, features of width 128. Write
  `silu x = x · σ(x)` with `σ x = 1 / (1 + e⁻ˣ)`.

  Per edge `e`, from the two endpoint feature rows `a = hrow e`, `b = hcol e`, and the coordinate difference
  `δ = cd e ∈ ℝ³` with squared length `r = ∑ δ_d²`:
    x₁ = a·Wa + b·Wb + r·wc + be1,   m = silu (silu x₁ · We2 + be2),
    coef = silu (m · Wc1 + bc1) · Wc2,   trans_d = min hi (max lo (δ_d · coef)).
  Here `Wa`, `Wb` are the two 128-row blocks of the first edge weight and `wc` its last row: the product of the
  concatenated 257-vector `[a | b | r]` with the whole weight splits into these three pieces because a finite sum
  over `Fin 257` is the sum over its first 128 indices, plus its next 128, plus the last one (`sum_split257`).

  Per node `n`, from its feature row `h n`, the summed incoming messages `agg n`, the summed translations
  `fsum n ∈ ℝ³` and the in-degree `cnt n`:
    h_out = silu (h·Wh + agg·Wg + bn1) · Wn2 + bn2   (`Wh`, `Wg` the two blocks of the node weight: `sum_split256`),
    vel = silu (h·Wv1 + bv1) · Wv2 + bv2,   force_d = fsum_d / max cnt 1.

  A segment sum at node `n` is the sum of the update rows of the edges whose row number is `n` (`segSum`).
  Every function below is stated index by index over literal index types, so that a block of rows of an
  array and the array itself are instances of the same definition at two row counts.
-/
import Idealize.ShloMosaic.PureOps.Ideal
import Idealize.ShloMosaic.Lib.ValueIdx

noncomputable section

open scoped BigOperators

namespace Cert.Egcl

open Idealize.ShloMosaic Idealize.ShloMosaic.ValueIdx

/-- A matrix of extended reals with `a` rows and `b` columns, as a function of its index. -/
abbrev M2 (a b : Nat) : Type := (⟨2, ![a, b]⟩ : Shape).Idx → EReal
/-- A vector of extended reals of length `a`. -/
abbrev V1 (a : Nat) : Type := (⟨1, ![a]⟩ : Shape).Idx → EReal

/-- `x · σ(x)`, with `σ` the logistic function `1 / (1 + e⁻ˣ)` extended by `σ(-∞) = 0`, `σ(+∞) = 1`. -/
def silu (x : EReal) : EReal := x * Ideal.logistic x

/-- The lower clamp bound, `-100`, as the float word both programs spell. -/
def lo : EReal := Ideal.ofBits .f32 0xC2C80000#32
/-- The upper clamp bound, `100`. -/
def hi : EReal := Ideal.ofBits .f32 0x42C80000#32
/-- The float word of `1`. -/
def one : EReal := Ideal.ofBits .f32 0x3F800000#32
/-- The float word of `0`: what a segment sum starts from. -/
def zero : EReal := Ideal.ofBits .f32 0x00000000#32

/-! ## The edge stage -/

section Edge
variable {E : Nat}
variable (hrow hcol : M2 E 128) (cd : M2 E 3) (Wa Wb : M2 128 128) (Wc : M2 1 128) (be1 : V1 128)
  (We2 : M2 128 128) (be2 : V1 128) (Wc1 : M2 128 128) (bc1 : V1 128) (Wc2 : M2 128 1)

/-- The squared length of edge `e`'s coordinate difference. -/
def radial (e : Fin E) : EReal := ∑ d : Fin 3, cd (ix2 e d) * cd (ix2 e d)

/-- The first edge layer before its activation: `a·Wa + b·Wb + r·wc + be1` at column `j`. -/
def eX1 (e : Fin E) (j : Fin 128) : EReal :=
  (((∑ k : Fin 128, hrow (ix2 e k) * Wa (ix2 k j)) + (∑ k : Fin 128, hcol (ix2 e k) * Wb (ix2 k j)))
    + radial cd e * Wc (ix2 (0 : Fin 1) j)) + be1 (ix1 j)

/-- The second edge layer before its activation. -/
def eX2 (e : Fin E) (j : Fin 128) : EReal :=
  (∑ k : Fin 128, silu (eX1 hrow hcol cd Wa Wb Wc be1 e k) * We2 (ix2 k j)) + be2 (ix1 j)

/-- The message of edge `e` at column `j`. -/
def eM (e : Fin E) (j : Fin 128) : EReal := silu (eX2 hrow hcol cd Wa Wb Wc be1 We2 be2 e j)

/-- The coefficient layer before its activation. -/
def eC1 (e : Fin E) (j : Fin 128) : EReal :=
  (∑ k : Fin 128, eM hrow hcol cd Wa Wb Wc be1 We2 be2 e k * Wc1 (ix2 k j)) + bc1 (ix1 j)

/-- The scalar coefficient of edge `e`. -/
def eCoef (e : Fin E) : EReal :=
  ∑ k : Fin 128, silu (eC1 hrow hcol cd Wa Wb Wc be1 We2 be2 Wc1 bc1 e k) * Wc2 (ix2 k (0 : Fin 1))

/-- The clamped translation of edge `e` along coordinate `d`. -/
def eT (e : Fin E) (d : Fin 3) : EReal :=
  min hi (max lo (cd (ix2 e d) * eCoef hrow hcol cd Wa Wb Wc be1 We2 be2 Wc1 bc1 Wc2 e))

/-- The messages of all `E` edges as one matrix. -/
def edgeM : M2 E 128 := fun i => eM hrow hcol cd Wa Wb Wc be1 We2 be2 (i 0) (i 1)

/-- The translations of all `E` edges as one matrix. -/
def edgeT : M2 E 3 := fun i => eT hrow hcol cd Wa Wb Wc be1 We2 be2 Wc1 bc1 Wc2 (i 0) (i 1)

end Edge

/-! ## The node stage -/

section Node
variable {N : Nat}
variable (h agg : M2 N 128) (fsum : M2 N 3) (cnt : M2 N 1) (Wh Wg : M2 128 128) (bn1 : V1 128)
  (Wn2 : M2 128 128) (bn2 : V1 128) (Wv1 : M2 128 128) (bv1 : V1 128) (Wv2 : M2 128 1) (bv2 : V1 1)

/-- The node layer before its activation: `h·Wh + agg·Wg + bn1`. -/
def nX (n : Fin N) (j : Fin 128) : EReal :=
  ((∑ k : Fin 128, h (ix2 n k) * Wh (ix2 k j)) + (∑ k : Fin 128, agg (ix2 n k) * Wg (ix2 k j))) + bn1 (ix1 j)

/-- The updated feature of node `n` at column `j`. -/
def nH (n : Fin N) (j : Fin 128) : EReal :=
  (∑ k : Fin 128, silu (nX h agg Wh Wg bn1 n k) * Wn2 (ix2 k j)) + bn2 (ix1 j)

/-- The velocity layer before its activation. -/
def nXv (n : Fin N) (j : Fin 128) : EReal := (∑ k : Fin 128, h (ix2 n k) * Wv1 (ix2 k j)) + bv1 (ix1 j)

/-- The velocity scale of node `n`. -/
def nVel (n : Fin N) : EReal :=
  (∑ k : Fin 128, silu (nXv h Wv1 bv1 n k) * Wv2 (ix2 k (0 : Fin 1))) + bv2 (ix1 (0 : Fin 1))

/-- The mean translation of node `n` along `d`, the count clamped below at 1. -/
def nForce (n : Fin N) (d : Fin 3) : EReal :=
  Ideal.div (fsum (ix2 n d)) (max (cnt (ix2 n (0 : Fin 1))) one)

/-- The updated features as one matrix. -/
def nodeH : M2 N 128 := fun i => nH h agg Wh Wg bn1 Wn2 bn2 (i 0) (i 1)
/-- The velocity scales as one column. -/
def nodeVel : M2 N 1 := fun i => nVel h Wv1 bv1 Wv2 bv2 (i 0)
/-- The mean translations as one matrix. -/
def nodeForce : M2 N 3 := fun i => nForce fsum cnt (i 0) (i 1)

end Node

/-! ## A block of rows of a matrix -/

/-- Rows `o, …, o + a - 1` of a matrix with `n` rows: how the two halves (and the last row) of a weight whose
    contraction axis is a concatenation are named. -/
def rowsFrom {n b : Nat} (a o : Nat) (h : o + a ≤ n) (X : M2 n b) : M2 a b :=
  fun i => X (ix2 ⟨o + (i 0).val, by have := idx2_lt0 i; omega⟩ (i 1))

theorem rowsFrom_apply {n b : Nat} (a o : Nat) (h : o + a ≤ n) (X : M2 n b) (p : Fin a) (q : Fin b) :
    rowsFrom a o h X (ix2 p q) = X (ix2 ⟨o + p.val, by omega⟩ q) := rfl

/-! ## Segment sums -/

/-- The segment sum at node `n` of a per-edge quantity `u`: from the zero word, the sum of `u e` over the edges
    whose row number, read as a signed integer, is `n`. -/
def segSum {E N : Nat} (idx : IVec ⟨2, ![E, 1]⟩ 32) (u : Fin E → EReal) (n : Fin N) : EReal :=
  zero + ∑ e ∈ Finset.univ.filter (fun e : Fin E => (idx (ix2 e (0 : Fin 1))).toInt = (n.val : Int)), u e

/-! ## A sum over a concatenated axis splits into its pieces -/

/-- A sum over `Fin 256` is the sum over the first 128 indices plus the sum over the last 128. -/
theorem sum_split256 (f : Fin 256 → EReal) :
    ∑ l : Fin 256, f l
      = (∑ k : Fin 128, f ⟨k.val, by omega⟩) + (∑ k : Fin 128, f ⟨128 + k.val, by omega⟩) := by
  have h := Fin.sum_univ_add (a := 128) (b := 128) (fun l : Fin (128 + 128) => f ⟨l.val, l.isLt⟩)
  refine h.trans ?_
  rfl

/-- A sum over `Fin 257` is the sum over the first 128 indices, plus the sum over the next 128, plus the last term. -/
theorem sum_split257 (f : Fin 257 → EReal) :
    ∑ l : Fin 257, f l
      = ((∑ k : Fin 128, f ⟨k.val, by omega⟩) + (∑ k : Fin 128, f ⟨128 + k.val, by omega⟩)) + f ⟨256, by omega⟩ := by
  rw [Fin.sum_univ_castSucc (n := 256) f]
  congr 1
  exact sum_split256 fun l => f ⟨l.val, by omega⟩

end Cert.Egcl

end
-- ==== Proof.EdgeValue.lean ====
/-
  The edge stage of the layer, read off the block program: what the two result arrays of the edge region hold when the
  region ends, as the specification's functions of the arrays the region was entered with.

  The region walks the 800000 edges in 200 blocks of 4000 rows. At a block it forms, for each of its rows, the first
  layer `a·Wa + b·Wb + r·wc + be1` (two 128-term contractions, the squared length of the coordinate difference times the
  last weight row, the bias), passes it through `x · σ(x)`, contracts with the second weight and adds its bias, and
  passes that through `x · σ(x)` again: the row's message. From the messages it forms the coefficient layer the same
  way, contracts with the one-column weight to the row's scalar coefficient, multiplies the coordinate difference by
  it and clamps to [-100, 100]: the row's translation.

  In order: the contractions, the three-term sum and the layout operations read at one index; the block program's
  three values at (p, q) as the specification's functions of the loaded blocks; the specification's edge functions at
  row p of one set of arrays against row r of another that agrees with it there; row p of the block at grid point t as
  row 4000 t + p of the array, a weight block as the weight; what each point writes back as its block of one function
  of the arrays; the blocks tile the rows (row r is in block r / 4000), so the arrays end holding that function.
-/
import proofs.«117344_j13692355739802_1_alg».proof.Proof.Gen.KernelIdeal.Frame
import proofs.«117344_j13692355739802_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The contractions at an index

A product of a [4000,128] block with a [128,128] (or [128,1]) weight, accumulated onto zero, is at (p, q) the sum
over k of the block at (p, k) times the weight at (k, q). The four coordinate facts say which operand coordinate
each output or contraction coordinate lands on. -/

theorem lhsSq_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsSq_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsSq_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsSq_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The square contraction at (p, q). -/
theorem matmulSq_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun c => Fin.ext (by
    match c with
    | ⟨0, _⟩ => exact lhsSq_0 _ _
    | ⟨1, _⟩ => exact (lhsSq_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun c => Fin.ext (by
    match c with
    | ⟨0, _⟩ => exact (rhsSq_0 _ _).trans hk
    | ⟨1, _⟩ => exact rhsSq_1 _ _)
  rw [el, er]

theorem lhsCol_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhsCol_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhsCol_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhsCol_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The one-column contraction at (p, u). -/
theorem matmulCol_apply (a : FVec Ideal S4000x128 .bf16) (b : FVec Ideal S128x1 .bf16) (p : Fin 4000) (u : Fin 1) :
    matmul dot_S4000x128_S128x1_S4000x1_1_0_0_1_n_n none a b (constant (F := Ideal) S4000x1 .f32 0x00000000#32) (ix2 p u)
      = ∑ k : Fin 128, a (ix2 p k) * b (ix2 k u) := by
  refine (Ideal.matmul_constant_zero_apply dot_S4000x128_S128x1_S4000x1_1_0_0_1_n_n none a b (ix2 p u)).trans ?_
  rw [← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p u) ((ValueIdx.contrEquiv1 dot_S4000x128_S128x1_S4000x1_1_0_0_1_n_n 128 rfl rfl).symm k) = ix2 p k := funext fun c => Fin.ext (by
    match c with
    | ⟨0, _⟩ => exact lhsCol_0 _ _
    | ⟨1, _⟩ => exact (lhsCol_1 _ _).trans hk)
  have er : dot_S4000x128_S128x1_S4000x1_1_0_0_1_n_n.rhsIdx (ix2 p u) ((ValueIdx.contrEquiv1 dot_S4000x128_S128x1_S4000x1_1_0_0_1_n_n 128 rfl rfl).symm k) = ix2 k u := funext fun c => Fin.ext (by
    match c with
    | ⟨0, _⟩ => exact (rhsCol_0 _ _).trans hk
    | ⟨1, _⟩ => exact rhsCol_1 _ _)
  rw [el, er]

/-! ## The lane sum and the layout operations at an index -/

/-- The sum over the three coordinates of a [4000,3] block, at row p. -/
theorem laneSum_apply (v : FVec Ideal S4000x3 .f32) (h : S4000x3.Reduces [1] S4000) (hφ : FKind.Formats .f32)
    (hacc : (0x00000000#32 : BitVec 32) = 0x00000000#32) (p : Fin 4000) :
    multiReduction .add [1] S4000 v 0x00000000#32 h hφ hacc (ix1 p) = ∑ d : Fin 3, v (ix2 p d) := by
  refine (Ideal.multiReduction_add_single v 0x00000000#32 h hφ hacc (ix1 p)).trans ?_
  refine Finset.sum_congr rfl fun d _ => congrArg v ?_
  funext c; apply Fin.ext
  match c with
  | ⟨0, _⟩ => rfl
  | ⟨1, _⟩ => rfl

/-- A length-a vector viewed as a column [a,1] reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a,1] broadcast to [a,b] reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The second layer before its activation, at an index -/

/-- The logistic function applied to a block reads, at an index, the logistic function of the element. -/
theorem logistic_apply {s : Shape} {φ : FTy} (a : FVec Ideal s φ) (i : s.Idx) : logistic a i = Ideal.logistic (a i) := rfl

/-- What the block program computes before the second activation is, at row p and column q, the second layer of the
    specification at the nine loaded blocks: the two feature products and the squared length times the last weight
    row, plus the bias, through `x · σ(x)`, times the second weight, plus its bias. -/
theorem pay3_apply (x0 x1 : Vec Ideal S4000x128 .f32) (x2 : Vec Ideal S4000x3 .f32) (x3 x4 : Vec Ideal S128x128 .f32)
    (x5 : Vec Ideal S1x128 .f32) (x6 : Vec Ideal S128 .f32) (x7 : Vec Ideal S128x128 .f32) (x8 : Vec Ideal S128 .f32)
    (p : Fin 4000) (q : Fin 128) :
    k0_pay3 (F := Ideal) x0 x1 x2 x3 x4 x5 x6 x7 x8 (ix2 p q) = Cert.Egcl.eX2 x0 x1 x2 x3 x4 x5 x6 x7 x8 p q := by
  unfold k0_pay3
  simp only [addf_apply, mulf_apply, truncf_apply, logistic_apply, matmulSq_apply, shapeCast_self,
    broadcastTo_1b_ab_apply, broadcastTo_a1_ab_apply, shapeCast_a_1a_apply, shapeCast_a_a1_apply]
  have hl := laneSum_apply (mulf x2 x2) reduces_S4000x3_S4000 (.inl rfl) rfl p
  simp only [mulf_apply] at hl
  rw [hl]
  rfl

/-- The stored messages of a block: the specification's messages at 4000 rows. -/
theorem pay1_eq (x0 x1 : Vec Ideal S4000x128 .f32) (x2 : Vec Ideal S4000x3 .f32) (x3 x4 : Vec Ideal S128x128 .f32)
    (x5 : Vec Ideal S1x128 .f32) (x6 : Vec Ideal S128 .f32) (x7 : Vec Ideal S128x128 .f32) (x8 : Vec Ideal S128 .f32) :
    k0_pay1 (F := Ideal) (k0_pay3 (F := Ideal) x0 x1 x2 x3 x4 x5 x6 x7 x8)
      = Cert.Egcl.edgeM (E := 4000) x0 x1 x2 x3 x4 x5 x6 x7 x8 := by
  funext i
  obtain ⟨p, q, rfl⟩ : ∃ (p : Fin 4000) (q : Fin 128), i = ix2 p q := ⟨i 0, i 1, eq_ix2 i⟩
  show k0_pay3 (F := Ideal) x0 x1 x2 x3 x4 x5 x6 x7 x8 (ix2 p q)
      * Ideal.logistic (k0_pay3 (F := Ideal) x0 x1 x2 x3 x4 x5 x6 x7 x8 (ix2 p q))
    = Cert.Egcl.silu (Cert.Egcl.eX2 x0 x1 x2 x3 x4 x5 x6 x7 x8 p q)
  rw [pay3_apply]
  rfl

/-- The clamped translations of a block from ANY second-layer value whose activation reads `m` at (p, j): the
    coefficient layer over `m`, through `x · σ(x)`, contracted with the one-column weight, times the coordinate
    difference, clamped. -/
theorem pay2_apply (x2 : Vec Ideal S4000x3 .f32) (v : FVec Ideal S4000x128 .f32) (x9 : Vec Ideal S128x128 .f32)
    (x10 : Vec Ideal S128 .f32) (x11 : Vec Ideal S128x1 .f32) (m : Fin 4000 → Fin 128 → EReal)
    (hm : ∀ (p : Fin 4000) (j : Fin 128), k0_pay1 (F := Ideal) v (ix2 p j) = m p j) (p : Fin 4000) (d : Fin 3) :
    k0_pay2 (F := Ideal) x2 v x9 x10 x11 (ix2 p d)
      = min Cert.Egcl.hi (max Cert.Egcl.lo (x2 (ix2 p d)
          * ∑ k : Fin 128, Cert.Egcl.silu ((∑ j : Fin 128, m p j * x9 (ix2 j k)) + x10 (ix1 k)) * x11 (ix2 k (0 : Fin 1)))) := by
  unfold k0_pay2
  simp only [minimumf_apply, maximumf_apply, broadcast_apply, addf_apply, mulf_apply, truncf_apply, logistic_apply,
    matmulSq_apply, matmulCol_apply, broadcastTo_1b_ab_apply, broadcastTo_a1_ab_apply, shapeCast_a_1a_apply, hm]
  rfl

/-- The stored translations of a block: the specification's translations at 4000 rows. -/
theorem pay2_eq (x0 x1 : Vec Ideal S4000x128 .f32) (x2 : Vec Ideal S4000x3 .f32) (x3 x4 : Vec Ideal S128x128 .f32)
    (x5 : Vec Ideal S1x128 .f32) (x6 : Vec Ideal S128 .f32) (x7 : Vec Ideal S128x128 .f32) (x8 : Vec Ideal S128 .f32)
    (x9 : Vec Ideal S128x128 .f32) (x10 : Vec Ideal S128 .f32) (x11 : Vec Ideal S128x1 .f32) :
    k0_pay2 (F := Ideal) x2 (k0_pay3 (F := Ideal) x0 x1 x2 x3 x4 x5 x6 x7 x8) x9 x10 x11
      = Cert.Egcl.edgeT (E := 4000) x0 x1 x2 x3 x4 x5 x6 x7 x8 x9 x10 x11 := by
  funext i
  obtain ⟨p, d, rfl⟩ : ∃ (p : Fin 4000) (d : Fin 3), i = ix2 p d := ⟨i 0, i 1, eq_ix2 i⟩
  refine (pay2_apply x2 _ x9 x10 x11 (fun p j => Cert.Egcl.eM x0 x1 x2 x3 x4 x5 x6 x7 x8 p j)
    (fun p j => congrFun (pay1_eq x0 x1 x2 x3 x4 x5 x6 x7 x8) (ix2 p j)) p d).trans ?_
  rfl

/-! ## A row of a block against a row of the array

Every edge function of the specification at row p of one set of arrays equals the same function at row r of another
set with the same weights, when the three per-edge inputs agree on those two rows. -/

section Rows
open Cert.Egcl
variable {A B : Nat} (h0 h1 : M2 A 128) (c0 : M2 A 3) (H0 H1 : M2 B 128) (C0 : M2 B 3)
  (Wa Wb : M2 128 128) (Wc : M2 1 128) (be1 : V1 128) (We2 : M2 128 128) (be2 : V1 128)
  (Wc1 : M2 128 128) (bc1 : V1 128) (Wc2 : M2 128 1)
  (p : Fin A) (r : Fin B)
  (e0 : ∀ k : Fin 128, h0 (ix2 p k) = H0 (ix2 r k)) (e1 : ∀ k : Fin 128, h1 (ix2 p k) = H1 (ix2 r k))
  (e2 : ∀ d : Fin 3, c0 (ix2 p d) = C0 (ix2 r d))
include e0 e1 e2

theorem eX1_rows (j : Fin 128) : eX1 h0 h1 c0 Wa Wb Wc be1 p j = eX1 H0 H1 C0 Wa Wb Wc be1 r j := by
  unfold eX1 radial
  simp only [e0, e1, e2]

theorem eX2_rows (j : Fin 128) :
    eX2 h0 h1 c0 Wa Wb Wc be1 We2 be2 p j = eX2 H0 H1 C0 Wa Wb Wc be1 We2 be2 r j := by
  unfold eX2
  simp only [eX1_rows h0 h1 c0 H0 H1 C0 Wa Wb Wc be1 p r e0 e1 e2]

theorem eM_rows (j : Fin 128) :
    eM h0 h1 c0 Wa Wb Wc be1 We2 be2 p j = eM H0 H1 C0 Wa Wb Wc be1 We2 be2 r j := by
  unfold eM
  rw [eX2_rows h0 h1 c0 H0 H1 C0 Wa Wb Wc be1 We2 be2 p r e0 e1 e2]

theorem eC1_rows (j : Fin 128) :
    eC1 h0 h1 c0 Wa Wb Wc be1 We2 be2 Wc1 bc1 p j = eC1 H0 H1 C0 Wa Wb Wc be1 We2 be2 Wc1 bc1 r j := by
  unfold eC1
  simp only [eM_rows h0 h1 c0 H0 H1 C0 Wa Wb Wc be1 We2 be2 p r e0 e1 e2]

theorem eCoef_rows :
    eCoef h0 h1 c0 Wa Wb Wc be1 We2 be2 Wc1 bc1 Wc2 p = eCoef H0 H1 C0 Wa Wb Wc be1 We2 be2 Wc1 bc1 Wc2 r := by
  unfold eCoef
  simp only [eC1_rows h0 h1 c0 H0 H1 C0 Wa Wb Wc be1 We2 be2 Wc1 bc1 p r e0 e1 e2]

theorem eT_rows (d : Fin 3) :
    eT h0 h1 c0 Wa Wb Wc be1 We2 be2 Wc1 bc1 Wc2 p d = eT H0 H1 C0 Wa Wb Wc be1 We2 be2 Wc1 bc1 Wc2 r d := by
  unfold eT
  rw [eCoef_rows h0 h1 c0 H0 H1 C0 Wa Wb Wc be1 We2 be2 Wc1 bc1 Wc2 p r e0 e1 e2, e2]

end Rows

/-! ## From blocks to the arrays

The three per-edge windows and the two result windows take block (t, 0) of 4000 rows at grid point t; the nine weight
windows take the whole array at every point. So row p of a per-edge block at point t is row 4000 t + p of its array, a
weight block is the weight, and the result blocks tile the 800000 rows. -/

theorem hz2 : (![0, 0] : Fin 2 → Nat) = fun _ => 0 := funext fun a => by fin_cases a <;> rfl
theorem hz1 : (![0] : Fin 1 → Nat) = fun _ => 0 := funext fun a => by fin_cases a; rfl

/-- Which block each window takes at each grid point, decided over the 200 points: block (t, 0) for the per-edge
    windows and the results, block 0 on every axis for the weights. -/
theorem idx_facts : ∀ t : Fin cfg0.N,
    (win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0)
    ∧ (win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0) :=
  (by decide +kernel : ∀ t : Fin grid0.N, _)

theorem grid_points : cfg0.N = 200 := by decide +kernel

variable (V : (c : Dev nD) → (b : Ref sig .tc) → Buf (Elt Ideal) ((c : Thread nD τ).loc b))

/-- Row p of the first feature block at point t is row r = 4000 t + p of its array. -/
theorem iblk_rows0 (c : Dev nD) (t : Fin cfg0.N) (p : Fin 4000) (r : Fin 800000) (hr : r.val = t.val * 4000 + p.val) (k : Fin 128) :
    (iblk0 (F := Ideal) V c 0 t : Vec Ideal S4000x128 .f32) (ix2 p k) = (V c main_v6 : Vec Ideal S800000x128 .f32) (ix2 r k) := by
  obtain ⟨⟨f0, f1, -⟩, -⟩ := idx_facts t
  unfold iblk0
  rw [View.read_apply]
  show V c main_v6 _ = V c main_v6 _
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- The same for the second feature block. -/
theorem iblk_rows1 (c : Dev nD) (t : Fin cfg0.N) (p : Fin 4000) (r : Fin 800000) (hr : r.val = t.val * 4000 + p.val) (k : Fin 128) :
    (iblk0 (F := Ideal) V c 1 t : Vec Ideal S4000x128 .f32) (ix2 p k) = (V c main_v13 : Vec Ideal S800000x128 .f32) (ix2 r k) := by
  obtain ⟨⟨-, -, f0, f1, -⟩, -⟩ := idx_facts t
  unfold iblk0
  rw [View.read_apply]
  show V c main_v13 _ = V c main_v13 _
  congr 1
  funext a
  apply Fin.ext
  match a with
  | ⟨0, _⟩ => show win0_1.index t (0 : Fin 2) * 4000 + 1 * p.val = r.val; omega
  | ⟨1, _⟩ => show win0_1.index t (1 : Fin 2) * 128 + 1 * k.val = k.val; omega

/-- The same for the block of coordinate differences. -/
theorem iblk_rows2 (c : Dev nD) (t : Fin cfg0.N) (p : Fin 4000) (r : Fin 800000) (hr : r.val = t.val * 4000 + p.val) (d : Fin 3) :
    (iblk0 (F := Ideal) V c 2 t : Vec Ideal S4000x3 .f32) (ix2 p d) = (V c main_arg1 : Vec Ideal S800000x3 .f32) (ix2 r d) := by
  obtain ⟨⟨-, -, -, -, f0, f1, -⟩, -⟩ := idx_facts t
  unfold iblk0
  rw [View.read_apply]
  show V c main_arg1 _ = V c main_arg1 _
  congr 1
  funext a
  apply Fin.ext
  match a with
  | ⟨0, _⟩ => show win0_2.index t (0 : Fin 2) * 4000 + 1 * p.val = r.val; omega
  | ⟨1, _⟩ => show win0_2.index t (1 : Fin 2) * 3 + 1 * d.val = d.val; omega

/-! Each weight window's block is its array, at every point. -/

theorem iblk_whole3 (c : Dev nD) (t : Fin cfg0.N) :
    (iblk0 (F := Ideal) V c 3 t : Vec Ideal S128x128 .f32) = (V c main_v14 : Vec Ideal S128x128 .f32) := by
  obtain ⟨-, g3a, g3b, g4a, g4b, g5a, g5b, g6, g7a, g7b, g8, g9a, g9b, g10, g11a, g11b⟩ := idx_facts t
  funext x
  unfold iblk0
  rw [View.read_apply]
  show V c main_v14 _ = V c main_v14 x
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem iblk_whole4 (c : Dev nD) (t : Fin cfg0.N) :
    (iblk0 (F := Ideal) V c 4 t : Vec Ideal S128x128 .f32) = (V c main_v15 : Vec Ideal S128x128 .f32) := by
  obtain ⟨-, g3a, g3b, g4a, g4b, g5a, g5b, g6, g7a, g7b, g8, g9a, g9b, g10, g11a, g11b⟩ := idx_facts t
  funext x
  unfold iblk0
  rw [View.read_apply]
  show V c main_v15 _ = V c main_v15 x
  congr 1
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

theorem iblk_whole5 (c : Dev nD) (t : Fin cfg0.N) :
    (iblk0 (F := Ideal) V c 5 t : Vec Ideal S1x128 .f32) = (V c main_v16 : Vec Ideal S1x128 .f32) := by
  obtain ⟨-, g3a, g3b, g4a, g4b, g5a, g5b, g6, g7a, g7b, g8, g9a, g9b, g10, g11a, g11b⟩ := idx_facts t
  funext x
  unfold iblk0
  rw [View.read_apply]
  show V c main_v16 _ = V c main_v16 x
  congr 1
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

theorem iblk_whole6 (c : Dev nD) (t : Fin cfg0.N) :
    (iblk0 (F := Ideal) V c 6 t : Vec Ideal S128 .f32) = (V c main_arg5 : Vec Ideal S128 .f32) := by
  obtain ⟨-, g3a, g3b, g4a, g4b, g5a, g5b, g6, g7a, g7b, g8, g9a, g9b, g10, g11a, g11b⟩ := idx_facts t
  funext x
  unfold iblk0
  rw [View.read_apply]
  show V c main_arg5 _ = V c main_arg5 x
  congr 1
  funext a
  apply Fin.ext
  match a with
  | ⟨0, _⟩ => show win0_6.index t (0 : Fin 1) * 128 + 1 * (x 0).val = (x 0).val; omega

theorem iblk_whole7 (c : Dev nD) (t : Fin cfg0.N) :
    (iblk0 (F := Ideal) V c 7 t : Vec Ideal S128x128 .f32) = (V c main_arg6 : Vec Ideal S128x128 .f32) := by
  obtain ⟨-, g3a, g3b, g4a, g4b, g5a, g5b, g6, g7a, g7b, g8, g9a, g9b, g10, g11a, g11b⟩ := idx_facts t
  funext x
  unfold iblk0
  rw [View.read_apply]
  show V c main_arg6 _ = V c main_arg6 x
  congr 1
  funext a
  apply Fin.ext
  match a with
  | ⟨0, _⟩ => show win0_7.index t (0 : Fin 2) * 128 + 1 * (x 0).val = (x 0).val; omega
  | ⟨1, _⟩ => show win0_7.index t (1 : Fin 2) * 128 + 1 * (x 1).val = (x 1).val; omega

theorem iblk_whole8 (c : Dev nD) (t : Fin cfg0.N) :
    (iblk0 (F := Ideal) V c 8 t : Vec Ideal S128 .f32) = (V c main_arg7 : Vec Ideal S128 .f32) := by
  obtain ⟨-, g3a, g3b, g4a, g4b, g5a, g5b, g6, g7a, g7b, g8, g9a, g9b, g10, g11a, g11b⟩ := idx_facts t
  funext x
  unfold iblk0
  rw [View.read_apply]
  show V c main_arg7 _ = V c main_arg7 x
  congr 1
  funext a
  apply Fin.ext
  match a with
  | ⟨0, _⟩ => show win0_8.index t (0 : Fin 1) * 128 + 1 * (x 0).val = (x 0).val; omega

theorem iblk_whole9 (c : Dev nD) (t : Fin cfg0.N) :
    (iblk0 (F := Ideal) V c 9 t : Vec Ideal S128x128 .f32) = (V c main_arg12 : Vec Ideal S128x128 .f32) := by
  obtain ⟨-, g3a, g3b, g4a, g4b, g5a, g5b, g6, g7a, g7b, g8, g9a, g9b, g10, g11a, g11b⟩ := idx_facts t
  funext x
  unfold iblk0
  rw [View.read_apply]
  show V c main_arg12 _ = V c main_arg12 x
  congr 1
  funext a
  apply Fin.ext
  match a with
  | ⟨0, _⟩ => show win0_9.index t (0 : Fin 2) * 128 + 1 * (x 0).val = (x 0).val; omega
  | ⟨1, _⟩ => show win0_9.index t (1 : Fin 2) * 128 + 1 * (x 1).val = (x 1).val; omega

theorem iblk_whole10 (c : Dev nD) (t : Fin cfg0.N) :
    (iblk0 (F := Ideal) V c 10 t : Vec Ideal S128 .f32) = (V c main_arg13 : Vec Ideal S128 .f32) := by
  obtain ⟨-, g3a, g3b, g4a, g4b, g5a, g5b, g6, g7a, g7b, g8, g9a, g9b, g10, g11a, g11b⟩ := idx_facts t
  funext x
  unfold iblk0
  rw [View.read_apply]
  show V c main_arg13 _ = V c main_arg13 x
  congr 1
  funext a
  apply Fin.ext
  match a with
  | ⟨0, _⟩ => show win0_10.index t (0 : Fin 1) * 128 + 1 * (x 0).val = (x 0).val; omega

theorem iblk_whole11 (c : Dev nD) (t : Fin cfg0.N) :
    (iblk0 (F := Ideal) V c 11 t : Vec Ideal S128x1 .f32) = (V c main_arg14 : Vec Ideal S128x1 .f32) := by
  obtain ⟨-, g3a, g3b, g4a, g4b, g5a, g5b, g6, g7a, g7b, g8, g9a, g9b, g10, g11a, g11b⟩ := idx_facts t
  funext x
  unfold iblk0
  rw [View.read_apply]
  show V c main_arg14 _ = V c main_arg14 x
  congr 1
  funext a
  apply Fin.ext
  match a with
  | ⟨0, _⟩ => show win0_11.index t (0 : Fin 2) * 128 + 1 * (x 0).val = (x 0).val; omega
  | ⟨1, _⟩ => show win0_11.index t (1 : Fin 2) * 1 + 1 * (x 1).val = (x 1).val; omega

/-- The array row that row p of the block at point t is. -/
def rowOf (t : Fin cfg0.N) (p : Fin 4000) : Fin 800000 :=
  ⟨t.val * 4000 + p.val, by have h : t.val < 200 := lt_of_lt_of_eq t.isLt grid_points; have := p.isLt; omega⟩

theorem rowOf_val (t : Fin cfg0.N) (p : Fin 4000) : (rowOf t p).val = t.val * 4000 + p.val := rfl

/-- The messages of the block at point t are the rows 4000 t, …, 4000 t + 3999 of the messages of all edges. -/
theorem blockM_eq (c : Dev nD) (t : Fin cfg0.N) :
    (Cert.Egcl.edgeM (E := 4000) (iblk0 (F := Ideal) V c 0 t) (iblk0 (F := Ideal) V c 1 t) (iblk0 (F := Ideal) V c 2 t) (V c main_v14) (V c main_v15) (V c main_v16) (V c main_arg5) (V c main_arg6) (V c main_arg7) : Vec Ideal S4000x128 .f32)
      = fun j : S4000x128.Idx => (Cert.Egcl.edgeM (V c main_v6) (V c main_v13) (V c main_arg1) (V c main_v14) (V c main_v15) (V c main_v16) (V c main_arg5) (V c main_arg6) (V c main_arg7) : Vec Ideal S800000x128 .f32) (ix2 (rowOf t (j 0)) (j 1)) := by
  funext j
  obtain ⟨p, q, rfl⟩ : ∃ (p : Fin 4000) (q : Fin 128), j = ix2 p q := ⟨j 0, j 1, eq_ix2 j⟩
  exact eM_rows _ _ _ _ _ _ _ _ _ _ _ _ p (rowOf t p) (iblk_rows0 V c t p _ rfl) (iblk_rows1 V c t p _ rfl)
    (iblk_rows2 V c t p _ rfl) q

/-- The translations of the block at point t are the same rows of the translations of all edges. -/
theorem blockT_eq (c : Dev nD) (t : Fin cfg0.N) :
    (Cert.Egcl.edgeT (E := 4000) (iblk0 (F := Ideal) V c 0 t) (iblk0 (F := Ideal) V c 1 t) (iblk0 (F := Ideal) V c 2 t) (V c main_v14) (V c main_v15) (V c main_v16) (V c main_arg5) (V c main_arg6) (V c main_arg7) (V c main_arg12) (V c main_arg13) (V c main_arg14) : Vec Ideal S4000x3 .f32)
      = fun j : S4000x3.Idx => (Cert.Egcl.edgeT (V c main_v6) (V c main_v13) (V c main_arg1) (V c main_v14) (V c main_v15) (V c main_v16) (V c main_arg5) (V c main_arg6) (V c main_arg7) (V c main_arg12) (V c main_arg13) (V c main_arg14) : Vec Ideal S800000x3 .f32) (ix2 (rowOf t (j 0)) (j 1)) := by
  funext j
  obtain ⟨p, d, rfl⟩ : ∃ (p : Fin 4000) (d : Fin 3), j = ix2 p d := ⟨j 0, j 1, eq_ix2 j⟩
  exact eT_rows _ _ _ _ _ _ _ _ _ _ _ _ _ _ _ p (rowOf t p) (iblk_rows0 V c t p _ rfl) (iblk_rows1 V c t p _ rfl)
    (iblk_rows2 V c t p _ rfl) d

/-- What point t writes back to the message array is block t of the messages of all edges. -/
theorem flushed_m (c : Dev nD) (t : Fin cfg0.N) :
    (dat0 (F := Ideal) V c).flushed 12 t
      = ((cfg0.win 12).blk t).view.read (Elt Ideal) (Cert.Egcl.edgeM (V c main_v6) (V c main_v13) (V c main_arg1) (V c main_v14) (V c main_v15) (V c main_v16) (V c main_arg5) (V c main_arg6) (V c main_arg7)) := by
  obtain ⟨⟨-, -, -, -, -, -, f0, f1, -⟩, -⟩ := idx_facts t
  show (cfg0.win 12).cut (grid0.coords t) ((dat0 (F := Ideal) V c).after 12 t) = _
  rw [after0_12]
  unfold out0_12
  rw [View.canon_unit_zero hz2]
  simp only [View.ld_unit_zero (S := S4000x128) hz2, View.ld_unit_zero (S := S4000x3) hz2, View.ld_unit_zero (S := S128x128) hz2,
    View.ld_unit_zero (S := S1x128) hz2, View.ld_unit_zero (S := S128) hz1]
  rw [pay1_eq, iblk_whole3, iblk_whole4, iblk_whole5, iblk_whole6, iblk_whole7, iblk_whole8, blockM_eq]
  funext j
  rw [View.read_apply]
  show Cert.Egcl.edgeM (V c main_v6) (V c main_v13) (V c main_arg1) (V c main_v14) (V c main_v15) (V c main_v16) (V c main_arg5) (V c main_arg6) (V c main_arg7) _ = Cert.Egcl.edgeM (V c main_v6) (V c main_v13) (V c main_arg1) (V c main_v14) (V c main_v15) (V c main_v16) (V c main_arg5) (V c main_arg6) (V c main_arg7) _
  congr 1
  funext a
  apply Fin.ext
  match a with
  | ⟨0, _⟩ => show t.val * 4000 + (j 0).val = win0_12.index t (0 : Fin 2) * 4000 + 1 * (j 0).val; omega
  | ⟨1, _⟩ => show (j 1).val = win0_12.index t (1 : Fin 2) * 128 + 1 * (j 1).val; omega

/-- What point t writes back to the translation array is block t of the translations of all edges. -/
theorem flushed_t (c : Dev nD) (t : Fin cfg0.N) :
    (dat0 (F := Ideal) V c).flushed 13 t
      = ((cfg0.win 13).blk t).view.read (Elt Ideal) (Cert.Egcl.edgeT (V c main_v6) (V c main_v13) (V c main_arg1) (V c main_v14) (V c main_v15) (V c main_v16) (V c main_arg5) (V c main_arg6) (V c main_arg7) (V c main_arg12) (V c main_arg13) (V c main_arg14)) := by
  obtain ⟨⟨-, -, -, -, -, -, -, -, f0, f1⟩, -⟩ := idx_facts t
  show (cfg0.win 13).cut (grid0.coords t) ((dat0 (F := Ideal) V c).after 13 t) = _
  rw [after0_13]
  unfold out0_13
  rw [View.canon_unit_zero hz2]
  simp only [View.ld_unit_zero (S := S4000x128) hz2, View.ld_unit_zero (S := S4000x3) hz2, View.ld_unit_zero (S := S128x128) hz2,
    View.ld_unit_zero (S := S1x128) hz2, View.ld_unit_zero (S := S128) hz1, View.ld_unit_zero (S := S128x1) hz2]
  rw [pay2_eq, iblk_whole3, iblk_whole4, iblk_whole5, iblk_whole6, iblk_whole7, iblk_whole8, iblk_whole9, iblk_whole10,
    iblk_whole11, blockT_eq]
  funext j
  rw [View.read_apply]
  show Cert.Egcl.edgeT (V c main_v6) (V c main_v13) (V c main_arg1) (V c main_v14) (V c main_v15) (V c main_v16) (V c main_arg5) (V c main_arg6) (V c main_arg7) (V c main_arg12) (V c main_arg13) (V c main_arg14) _ = Cert.Egcl.edgeT (V c main_v6) (V c main_v13) (V c main_arg1) (V c main_v14) (V c main_v15) (V c main_v16) (V c main_arg5) (V c main_arg6) (V c main_arg7) (V c main_arg12) (V c main_arg13) (V c main_arg14) _
  congr 1
  funext a
  apply Fin.ext
  match a with
  | ⟨0, _⟩ => show t.val * 4000 + (j 0).val = win0_13.index t (0 : Fin 2) * 4000 + 1 * (j 0).val; omega
  | ⟨1, _⟩ => show (j 1).val = win0_13.index t (1 : Fin 2) * 3 + 1 * (j 1).val; omega

/-- An index of the message array is in point t's block iff each coordinate is in the block's range on its axis. -/
theorem mem_blkM (t : Fin cfg0.N) (i : S800000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v17_0).slice (win0_12.rect t)).set ↔ _
  rw [View.set_slice_whole, Rect.mem_set_unit]
  exact Iff.rfl

/-- The same for the translation array. -/
theorem mem_blkT (t : Fin cfg0.N) (i : S800000x3.Idx) :
    i ∈ ((cfg0.win 13).blk t).view.set ↔ ∀ a : Fin 2, win0_13.index t a * S4000x3.size a ≤ (i a).val ∧ (i a).val < win0_13.index t a * S4000x3.size a + S4000x3.size a := by
  show i ∈ ((View.whole main_v17_1).slice (win0_13.rect t)).set ↔ _
  rw [View.set_slice_whole, Rect.mem_set_unit]
  exact Iff.rfl

/-- Row r lies in the block of point r / 4000. -/
theorem point_of_row (r : Nat) (hr : r < 800000) : ∃ t : Fin cfg0.N, t.val = r / 4000 :=
  ⟨⟨r / 4000, by rw [grid_points]; omega⟩, rfl⟩

/-- THE MESSAGE ARRAY when the region ends: the messages of all 800000 edges, from the arrays the region was entered with. -/
theorem edge_m (c : Dev nD) : (dat0 (F := Ideal) V c).arrAt 12 cfg0.N
    = Cert.Egcl.edgeM (V c main_v6) (V c main_v13) (V c main_arg1) (V c main_v14) (V c main_v15) (V c main_v16) (V c main_arg5) (V c main_arg6) (V c main_arg7) :=
  (dat0 (F := Ideal) V c).arrAt_eq_of_cover 12 (Cert.Egcl.edgeM (V c main_v6) (V c main_v13) (V c main_arg1) (V c main_v14) (V c main_v15) (V c main_v16) (V c main_arg5) (V c main_arg6) (V c main_arg7))
    (fun t _ => flushed_m V c t) fun i => by
      have hi0 : (i 0).val < 800000 := (i 0).isLt
      have hi1 : (i 1).val < 128 := (i 1).isLt
      obtain ⟨t, ht⟩ := point_of_row (i 0).val hi0
      obtain ⟨⟨-, -, -, -, -, -, f0, f1, -⟩, -⟩ := idx_facts t
      refine ⟨t, flush0_12 t, ?_⟩
      rw [mem_blkM]
      intro a
      match a with
      | ⟨0, _⟩ => show win0_12.index t (0 : Fin 2) * 4000 ≤ (i 0).val ∧ (i 0).val < win0_12.index t (0 : Fin 2) * 4000 + 4000; omega
      | ⟨1, _⟩ => show win0_12.index t (1 : Fin 2) * 128 ≤ (i 1).val ∧ (i 1).val < win0_12.index t (1 : Fin 2) * 128 + 128; omega

/-- THE TRANSLATION ARRAY when the region ends: the clamped translations of all 800000 edges. -/
theorem edge_t (c : Dev nD) : (dat0 (F := Ideal) V c).arrAt 13 cfg0.N
    = Cert.Egcl.edgeT (V c main_v6) (V c main_v13) (V c main_arg1) (V c main_v14) (V c main_v15) (V c main_v16) (V c main_arg5) (V c main_arg6) (V c main_arg7) (V c main_arg12) (V c main_arg13) (V c main_arg14) :=
  (dat0 (F := Ideal) V c).arrAt_eq_of_cover 13 (Cert.Egcl.edgeT (V c main_v6) (V c main_v13) (V c main_arg1) (V c main_v14) (V c main_v15) (V c main_v16) (V c main_arg5) (V c main_arg6) (V c main_arg7) (V c main_arg12) (V c main_arg13) (V c main_arg14))
    (fun t _ => flushed_t V c t) fun i => by
      have hi0 : (i 0).val < 800000 := (i 0).isLt
      have hi1 : (i 1).val < 3 := (i 1).isLt
      obtain ⟨t, ht⟩ := point_of_row (i 0).val hi0
      obtain ⟨⟨-, -, -, -, -, -, -, -, f0, f1⟩, -⟩ := idx_facts t
      refine ⟨t, flush0_13 t, ?_⟩
      rw [mem_blkT]
      intro a
      match a with
      | ⟨0, _⟩ => show win0_13.index t (0 : Fin 2) * 4000 ≤ (i 0).val ∧ (i 0).val < win0_13.index t (0 : Fin 2) * 4000 + 4000; omega
      | ⟨1, _⟩ => show win0_13.index t (1 : Fin 2) * 3 ≤ (i 1).val ∧ (i 1).val < win0_13.index t (1 : Fin 2) * 3 + 3; omega

end Cert.KernelIdeal.EdgeValue

end
-- ==== Proof.NodeValue.lean ====
/-
  The node stage of the layer, read off the idealized kernel program.

  The second pipelined region walks the 50000 nodes in 25 blocks of 2000 rows. At each grid point its body
  stores three whole blocks: the updated features, the velocity column and the mean translation of the
  block's rows. This module shows that each stored block is the layer's node formula at 2000 rows, that the
  formula of a block's row is the formula of the array's row it was cut from, and that the 25 blocks tile the
  arrays, so each output array ends holding the node formula of the arrays the region was entered with.
-/
import proofs.«117344_j13692355739802_1_alg».proof.Proof.Gen.KernelIdeal.Frame
import proofs.«117344_j13692355739802_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## A product with a square weight, and with a one-column weight, at an index

Both contractions run over the operands' shared axis of length 128: the left operand's second axis against the
right operand's first. Read at row `p`, column `q`, into a zero accumulator, each is the plain sum of products. -/

theorem dsq_lhs0 (i : S2000x128.Idx) (z : dot_S2000x128_S128x128_S2000x128_1_0_0_1_n_n.contr.Idx) :
    (dot_S2000x128_S128x128_S2000x128_1_0_0_1_n_n.lhsIdx i z 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dsq_lhs1 (i : S2000x128.Idx) (z : dot_S2000x128_S128x128_S2000x128_1_0_0_1_n_n.contr.Idx) :
    (dot_S2000x128_S128x128_S2000x128_1_0_0_1_n_n.lhsIdx i z 1).val = (z ⟨0, by decide⟩).val :=
  dot_S2000x128_S128x128_S2000x128_1_0_0_1_n_n.lhsIdx_val_of_single rfl i z
theorem dsq_rhs0 (i : S2000x128.Idx) (z : dot_S2000x128_S128x128_S2000x128_1_0_0_1_n_n.contr.Idx) :
    (dot_S2000x128_S128x128_S2000x128_1_0_0_1_n_n.rhsIdx i z 0).val = (z ⟨0, by decide⟩).val :=
  dot_S2000x128_S128x128_S2000x128_1_0_0_1_n_n.rhsIdx_val_of_single rfl i z
theorem dsq_rhs1 (i : S2000x128.Idx) (z : dot_S2000x128_S128x128_S2000x128_1_0_0_1_n_n.contr.Idx) :
    (dot_S2000x128_S128x128_S2000x128_1_0_0_1_n_n.rhsIdx i z 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 block times a 128 x 128 weight, from zero: entry `(p, q)` is `∑ k, a (p, k) * b (k, q)`. -/
theorem mm_square_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun ax => Fin.ext (by
    match ax with
    | ⟨0, _⟩ => exact dsq_lhs0 _ _
    | ⟨1, _⟩ => exact (dsq_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun ax => Fin.ext (by
    match ax with
    | ⟨0, _⟩ => exact (dsq_rhs0 _ _).trans hk
    | ⟨1, _⟩ => exact dsq_rhs1 _ _)
  rw [el, er]

theorem dcol_lhs0 (i : S2000x1.Idx) (z : dot_S2000x128_S128x1_S2000x1_1_0_0_1_n_n.contr.Idx) :
    (dot_S2000x128_S128x1_S2000x1_1_0_0_1_n_n.lhsIdx i z 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem dcol_lhs1 (i : S2000x1.Idx) (z : dot_S2000x128_S128x1_S2000x1_1_0_0_1_n_n.contr.Idx) :
    (dot_S2000x128_S128x1_S2000x1_1_0_0_1_n_n.lhsIdx i z 1).val = (z ⟨0, by decide⟩).val :=
  dot_S2000x128_S128x1_S2000x1_1_0_0_1_n_n.lhsIdx_val_of_single rfl i z
theorem dcol_rhs0 (i : S2000x1.Idx) (z : dot_S2000x128_S128x1_S2000x1_1_0_0_1_n_n.contr.Idx) :
    (dot_S2000x128_S128x1_S2000x1_1_0_0_1_n_n.rhsIdx i z 0).val = (z ⟨0, by decide⟩).val :=
  dot_S2000x128_S128x1_S2000x1_1_0_0_1_n_n.rhsIdx_val_of_single rfl i z
theorem dcol_rhs1 (i : S2000x1.Idx) (z : dot_S2000x128_S128x1_S2000x1_1_0_0_1_n_n.contr.Idx) :
    (dot_S2000x128_S128x1_S2000x1_1_0_0_1_n_n.rhsIdx i z 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A 2000 x 128 block times a 128 x 1 weight, from zero: entry `(p, u)` is `∑ k, a (p, k) * b (k, u)`. -/
theorem mm_column_apply (a : FVec Ideal S2000x128 .bf16) (b : FVec Ideal S128x1 .bf16) (p : Fin 2000) (u : Fin 1) :
    matmul dot_S2000x128_S128x1_S2000x1_1_0_0_1_n_n none a b (constant (F := Ideal) S2000x1 .f32 0x00000000#32) (ix2 p u)
      = ∑ k : Fin 128, a (ix2 p k) * b (ix2 k u) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p u) ((contrEquiv1 dot_S2000x128_S128x1_S2000x1_1_0_0_1_n_n 128 rfl rfl).symm k) = ix2 p k := funext fun ax => Fin.ext (by
    match ax with
    | ⟨0, _⟩ => exact dcol_lhs0 _ _
    | ⟨1, _⟩ => exact (dcol_lhs1 _ _).trans hk)
  have er : dot_S2000x128_S128x1_S2000x1_1_0_0_1_n_n.rhsIdx (ix2 p u) ((contrEquiv1 dot_S2000x128_S128x1_S2000x1_1_0_0_1_n_n 128 rfl rfl).symm k) = ix2 k u := funext fun ax => Fin.ext (by
    match ax with
    | ⟨0, _⟩ => exact (dcol_rhs0 _ _).trans hk
    | ⟨1, _⟩ => exact dcol_rhs1 _ _)
  rw [el, er]

/-! ## The stored blocks at an index

Each stored block is a tree of pointwise operations, products with a weight, and row or column broadcasts. Read at
an index it is the layer's node formula at 2000 rows. Narrowing casts keep an extended real as it is. -/

/-- The logistic of a vector, read at an index. -/
theorem logistic_apply {s : Shape} {φ : FTy} (a : FVec Ideal s φ) (i : s.Idx) :
    logistic a i = Ideal.logistic (a i) := rfl

/-- A length-128 bias laid over every row of a 2000 x 128 block: entry `(p, q)` is the bias at `q`. -/
theorem bias_row_apply (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ _ p q).trans (shapeCast_a_1a_apply b _ 0 q)

/-- The updated-features block at row `p`, column `q`. -/
theorem pay4_apply (x0 x1 : Vec Ideal S2000x128 .f32) (x4 x5 : Vec Ideal S128x128 .f32) (x6 : Vec Ideal S128 .f32)
    (x7 : Vec Ideal S128x128 .f32) (x8 : Vec Ideal S128 .f32) (p : Fin 2000) (q : Fin 128) :
    k1_pay4 (F := Ideal) x0 x1 x4 x5 x6 x7 x8 (ix2 p q) = Cert.Egcl.nH (N := 2000) x0 x1 x4 x5 x6 x7 x8 p q := by
  unfold k1_pay4 k1_pay3 Cert.Egcl.nH Cert.Egcl.nX Cert.Egcl.silu
  simp only [addf_apply, mulf_apply, truncf_apply, mm_square_apply, shapeCast_self, bias_row_apply, logistic_apply]

/-- One column broadcast across many: a `[a, 1]` array laid over `[a, b]` reads, at `(p, c)`, row `p` of the column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry bias laid over a 2000 x 1 column: every entry is the bias. -/
theorem bias_one_apply (b : FVec Ideal S1 .f32) (p : Fin 2000) (u : Fin 1) :
    broadcastTo S2000x1 (shapeCast S1x1 b shapeCasts_S1_S1x1) broadcasts_S1x1_S2000x1 (ix2 p u) = b (ix1 u) :=
  (broadcastTo_1b_ab_apply _ _ p u).trans (shapeCast_a_1a_apply b _ 0 u)

/-- The velocity layer before its activation, at row `p`, column `k`. -/
theorem pay5_apply (x0 : Vec Ideal S2000x128 .f32) (x9 : Vec Ideal S128x128 .f32) (x10 : Vec Ideal S128 .f32)
    (p : Fin 2000) (k : Fin 128) :
    k1_pay5 (F := Ideal) x0 x9 x10 (ix2 p k) = Cert.Egcl.nXv (N := 2000) x0 x9 x10 p k := by
  unfold k1_pay5 k1_pay3 Cert.Egcl.nXv
  simp only [addf_apply, truncf_apply, mm_square_apply, bias_row_apply]

/-- Its logistic, at row `p`, column `k`. -/
theorem pay6_apply (x0 : Vec Ideal S2000x128 .f32) (x9 : Vec Ideal S128x128 .f32) (x10 : Vec Ideal S128 .f32)
    (p : Fin 2000) (k : Fin 128) :
    k1_pay6 (F := Ideal) x0 x9 x10 (ix2 p k) = Ideal.logistic (Cert.Egcl.nXv (N := 2000) x0 x9 x10 p k) := by
  unfold k1_pay6
  exact congrArg Ideal.logistic (pay5_apply x0 x9 x10 p k)

/-- The velocity column at row `p`. -/
theorem pay1_apply (x0 : Vec Ideal S2000x128 .f32) (x9 : Vec Ideal S128x128 .f32) (x10 : Vec Ideal S128 .f32)
    (x11 : Vec Ideal S128x1 .f32) (x12 : Vec Ideal S1 .f32) (p : Fin 2000) :
    k1_pay1 (F := Ideal) (k1_pay5 x0 x9 x10) (k1_pay6 x0 x9 x10) x11 x12 (ix2 p (0 : Fin 1))
      = Cert.Egcl.nVel (N := 2000) x0 x9 x10 x11 x12 p := by
  unfold k1_pay1 Cert.Egcl.nVel Cert.Egcl.silu
  simp only [addf_apply, mulf_apply, truncf_apply, mm_column_apply, bias_one_apply, pay5_apply, pay6_apply]

/-- The mean-translation block at row `p`, coordinate `d`: the summed translation over the count clamped below at one. -/
theorem pay2_apply (x2 : Vec Ideal S2000x3 .f32) (x3 : Vec Ideal S2000x1 .f32) (p : Fin 2000) (d : Fin 3) :
    k1_pay2 (F := Ideal) x2 x3 (ix2 p d) = Cert.Egcl.nForce (N := 2000) x2 x3 p d := by
  unfold k1_pay2 Cert.Egcl.nForce Cert.Egcl.one
  simp only [divf_apply, shapeCast_self, broadcastTo_a1_ab_apply, maximumf_apply, broadcast_apply]
  rfl

/-- The updated-features block is the node formula at 2000 rows. -/
theorem pay4_eq (x0 x1 : Vec Ideal S2000x128 .f32) (x4 x5 : Vec Ideal S128x128 .f32) (x6 : Vec Ideal S128 .f32)
    (x7 : Vec Ideal S128x128 .f32) (x8 : Vec Ideal S128 .f32) :
    k1_pay4 (F := Ideal) x0 x1 x4 x5 x6 x7 x8 = Cert.Egcl.nodeH (N := 2000) x0 x1 x4 x5 x6 x7 x8 :=
  funext fun j => (congrArg (k1_pay4 (F := Ideal) x0 x1 x4 x5 x6 x7 x8) (eq_ix2 j)).trans
    (pay4_apply x0 x1 x4 x5 x6 x7 x8 (j 0) (j 1))

/-- The velocity column is the node formula at 2000 rows: its one column has index zero. -/
theorem pay1_eq (x0 : Vec Ideal S2000x128 .f32) (x9 : Vec Ideal S128x128 .f32) (x10 : Vec Ideal S128 .f32)
    (x11 : Vec Ideal S128x1 .f32) (x12 : Vec Ideal S1 .f32) :
    k1_pay1 (F := Ideal) (k1_pay5 x0 x9 x10) (k1_pay6 x0 x9 x10) x11 x12 = Cert.Egcl.nodeVel (N := 2000) x0 x9 x10 x11 x12 :=
  funext fun j => by
    have h1 : j 1 = (0 : Fin 1) := Fin.ext (by have hlt : (j 1).val < 1 := idx2_lt1 j; show (j 1).val = 0; omega)
    have hj : j = ix2 (j 0) (0 : Fin 1) := (eq_ix2 j).trans (congrArg (ix2 (j 0)) h1)
    exact (congrArg (k1_pay1 (F := Ideal) (k1_pay5 x0 x9 x10) (k1_pay6 x0 x9 x10) x11 x12) hj).trans
      (pay1_apply x0 x9 x10 x11 x12 (j 0))

/-- The mean-translation block is the node formula at 2000 rows. -/
theorem pay2_eq (x2 : Vec Ideal S2000x3 .f32) (x3 : Vec Ideal S2000x1 .f32) :
    k1_pay2 (F := Ideal) x2 x3 = Cert.Egcl.nodeForce (N := 2000) x2 x3 :=
  funext fun j => (congrArg (k1_pay2 (F := Ideal) x2 x3) (eq_ix2 j)).trans (pay2_apply x2 x3 (j 0) (j 1))

/-! ## A block's row and the array's row it was cut from

The node formulas read one row of each per-node operand and the whole of each weight. So when a row of every
per-node block agrees with a row of the corresponding array, entry by entry, the formulas agree at those rows. -/

section Rows
open Cert.Egcl
variable {N M : Nat}

theorem nX_rows (h agg : M2 N 128) (h' agg' : M2 M 128) (Wh Wg : M2 128 128) (bn1 : V1 128) (p : Fin N) (r : Fin M)
    (hh : ∀ k, h (ix2 p k) = h' (ix2 r k)) (ha : ∀ k, agg (ix2 p k) = agg' (ix2 r k)) (j : Fin 128) :
    nX h agg Wh Wg bn1 p j = nX h' agg' Wh Wg bn1 r j := by
  unfold nX
  rw [Finset.sum_congr rfl fun k _ => congrArg (· * Wh (ix2 k j)) (hh k),
    Finset.sum_congr rfl fun k _ => congrArg (· * Wg (ix2 k j)) (ha k)]

theorem nH_rows (h agg : M2 N 128) (h' agg' : M2 M 128) (Wh Wg : M2 128 128) (bn1 : V1 128) (Wn2 : M2 128 128) (bn2 : V1 128)
    (p : Fin N) (r : Fin M) (hh : ∀ k, h (ix2 p k) = h' (ix2 r k)) (ha : ∀ k, agg (ix2 p k) = agg' (ix2 r k)) (j : Fin 128) :
    nH h agg Wh Wg bn1 Wn2 bn2 p j = nH h' agg' Wh Wg bn1 Wn2 bn2 r j := by
  unfold nH
  rw [Finset.sum_congr rfl fun k _ => congrArg (fun x => silu x * Wn2 (ix2 k j)) (nX_rows h agg h' agg' Wh Wg bn1 p r hh ha k)]

theorem nXv_rows (h : M2 N 128) (h' : M2 M 128) (Wv1 : M2 128 128) (bv1 : V1 128) (p : Fin N) (r : Fin M)
    (hh : ∀ k, h (ix2 p k) = h' (ix2 r k)) (j : Fin 128) :
    nXv h Wv1 bv1 p j = nXv h' Wv1 bv1 r j := by
  unfold nXv
  rw [Finset.sum_congr rfl fun k _ => congrArg (· * Wv1 (ix2 k j)) (hh k)]

theorem nVel_rows (h : M2 N 128) (h' : M2 M 128) (Wv1 : M2 128 128) (bv1 : V1 128) (Wv2 : M2 128 1) (bv2 : V1 1)
    (p : Fin N) (r : Fin M) (hh : ∀ k, h (ix2 p k) = h' (ix2 r k)) :
    nVel h Wv1 bv1 Wv2 bv2 p = nVel h' Wv1 bv1 Wv2 bv2 r := by
  unfold nVel
  rw [Finset.sum_congr rfl fun k _ => congrArg (fun x => silu x * Wv2 (ix2 k (0 : Fin 1))) (nXv_rows h h' Wv1 bv1 p r hh k)]

theorem nForce_rows (fsum : M2 N 3) (cnt : M2 N 1) (fsum' : M2 M 3) (cnt' : M2 M 1) (p : Fin N) (r : Fin M)
    (hf : ∀ d, fsum (ix2 p d) = fsum' (ix2 r d)) (hc : cnt (ix2 p (0 : Fin 1)) = cnt' (ix2 r (0 : Fin 1))) (d : Fin 3) :
    nForce fsum cnt p d = nForce fsum' cnt' r d := by
  unfold nForce
  rw [hf d, hc]

end Rows

/-! ## From blocks to the arrays

Grid point `t` of the 25 holds rows `2000 t, …, 2000 t + 1999` of every per-node array and the whole of every weight.
So what it writes back is the node formula of the arrays, read through its block; and every row `r` of an output
array lies in the block of point `r / 2000`. -/

section Arrays
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The per-node windows' block index at point `t` is `(t, 0)` (decided over the 25 points). -/
theorem idx_moving : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_13.index t (0 : Fin 2) = t.val ∧ win1_13.index t (1 : Fin 2) = 0
    ∧ win1_14.index t (0 : Fin 2) = t.val ∧ win1_14.index t (1 : Fin 2) = 0
    ∧ win1_15.index t (0 : Fin 2) = t.val ∧ win1_15.index t (1 : Fin 2) = 0 :=
  (by decide +kernel : ∀ t : Fin grid1.N, _)

/-- The weight windows' block index is zero on every axis at every point (decided over the 25 points). -/
theorem idx_fixed : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 2) = 0 ∧ win1_11.index t (1 : Fin 2) = 0
    ∧ win1_12.index t (0 : Fin 1) = 0 :=
  (by decide +kernel : ∀ t : Fin grid1.N, _)

/-- Row `p` of the block at point `t` is row `2000 t + p` of the array. -/
def rowOf (t : Fin cfg1.N) (p : Fin 2000) : Fin 50000 :=
  ⟨t.val * 2000 + p.val, by have := t.isLt; have h : cfg1.N = 25 := N_1; have := p.isLt; omega⟩

theorem blk_h (c : Dev nD) (t : Fin cfg1.N) (p : Fin 2000) (k : Fin 128) :
    (iblk1 V c 0 t : Vec Ideal S2000x128 .f32) (ix2 p k) = V c main_arg0 (ix2 (rowOf t p) k) := by
  show V c main_arg0 (((cfg1.win 0).blk t).view.emb (ix2 p k)) = _
  refine congrArg (V c main_arg0) (funext fun a => Fin.ext ?_)
  obtain ⟨e0, e1, -⟩ := idx_moving t
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem blk_agg (c : Dev nD) (t : Fin cfg1.N) (p : Fin 2000) (k : Fin 128) :
    (iblk1 V c 1 t : Vec Ideal S2000x128 .f32) (ix2 p k) = V c main_v22 (ix2 (rowOf t p) k) := by
  show V c main_v22 (((cfg1.win 1).blk t).view.emb (ix2 p k)) = _
  refine congrArg (V c main_v22) (funext fun a => Fin.ext ?_)
  obtain ⟨-, -, e0, e1, -⟩ := idx_moving t
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

theorem blk_fsum (c : Dev nD) (t : Fin cfg1.N) (p : Fin 2000) (d : Fin 3) :
    (iblk1 V c 2 t : Vec Ideal S2000x3 .f32) (ix2 p d) = V c main_v26 (ix2 (rowOf t p) d) := by
  show V c main_v26 (((cfg1.win 2).blk t).view.emb (ix2 p d)) = _
  refine congrArg (V c main_v26) (funext fun a => Fin.ext ?_)
  obtain ⟨-, -, -, -, e0, e1, -⟩ := idx_moving t
  match a with
  | ⟨0, _⟩ => show win1_2.index t (0 : Fin 2) * 2000 + 1 * p.val = t.val * 2000 + p.val; rw [e0]; omega
  | ⟨1, _⟩ => show win1_2.index t (1 : Fin 2) * 3 + 1 * d.val = d.val; rw [e1]; omega

theorem blk_cnt (c : Dev nD) (t : Fin cfg1.N) (p : Fin 2000) (u : Fin 1) :
    (iblk1 V c 3 t : Vec Ideal S2000x1 .f32) (ix2 p u) = V c main_v27 (ix2 (rowOf t p) u) := by
  show V c main_v27 (((cfg1.win 3).blk t).view.emb (ix2 p u)) = _
  refine congrArg (V c main_v27) (funext fun a => Fin.ext ?_)
  obtain ⟨-, -, -, -, -, -, e0, e1, -⟩ := idx_moving t
  match a with
  | ⟨0, _⟩ => show win1_3.index t (0 : Fin 2) * 2000 + 1 * p.val = t.val * 2000 + p.val; rw [e0]; omega
  | ⟨1, _⟩ => show win1_3.index t (1 : Fin 2) * 1 + 1 * u.val = u.val; rw [e1]; omega

/-- A weight window's block is the whole weight, at every point. -/
theorem blk_w4 (c : Dev nD) (t : Fin cfg1.N) : (iblk1 V c 4 t : Vec Ideal S128x128 .f32) = V c main_v28 := by
  funext y
  show V c main_v28 (((cfg1.win 4).blk t).view.emb y) = _
  refine congrArg (V c main_v28) (funext fun a => Fin.ext ?_)
  obtain ⟨e0, e1, -⟩ := idx_fixed t
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk_w5 (c : Dev nD) (t : Fin cfg1.N) : (iblk1 V c 5 t : Vec Ideal S128x128 .f32) = V c main_v29 := by
  funext y
  show V c main_v29 (((cfg1.win 5).blk t).view.emb y) = _
  refine congrArg (V c main_v29) (funext fun a => Fin.ext ?_)
  obtain ⟨-, -, e0, e1, -⟩ := idx_fixed t
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem blk_w6 (c : Dev nD) (t : Fin cfg1.N) : (iblk1 V c 6 t : Vec Ideal S128 .f32) = V c main_arg9 := by
  funext y
  show V c main_arg9 (((cfg1.win 6).blk t).view.emb y) = _
  refine congrArg (V c main_arg9) (funext fun a => Fin.ext ?_)
  obtain ⟨-, -, -, -, e0, -⟩ := idx_fixed t
  match a with
  | ⟨0, _⟩ => show win1_6.index t (0 : Fin 1) * 128 + 1 * (y 0).val = (y 0).val; rw [e0]; omega

theorem blk_w7 (c : Dev nD) (t : Fin cfg1.N) : (iblk1 V c 7 t : Vec Ideal S128x128 .f32) = V c main_arg10 := by
  funext y
  show V c main_arg10 (((cfg1.win 7).blk t).view.emb y) = _
  refine congrArg (V c main_arg10) (funext fun a => Fin.ext ?_)
  obtain ⟨-, -, -, -, -, e0, e1, -⟩ := idx_fixed t
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

theorem blk_w8 (c : Dev nD) (t : Fin cfg1.N) : (iblk1 V c 8 t : Vec Ideal S128 .f32) = V c main_arg11 := by
  funext y
  show V c main_arg11 (((cfg1.win 8).blk t).view.emb y) = _
  refine congrArg (V c main_arg11) (funext fun a => Fin.ext ?_)
  obtain ⟨-, -, -, -, -, -, -, e0, -⟩ := idx_fixed t
  match a with
  | ⟨0, _⟩ => show win1_8.index t (0 : Fin 1) * 128 + 1 * (y 0).val = (y 0).val; rw [e0]; omega

theorem blk_w9 (c : Dev nD) (t : Fin cfg1.N) : (iblk1 V c 9 t : Vec Ideal S128x128 .f32) = V c main_arg15 := by
  funext y
  show V c main_arg15 (((cfg1.win 9).blk t).view.emb y) = _
  refine congrArg (V c main_arg15) (funext fun a => Fin.ext ?_)
  obtain ⟨-, -, -, -, -, -, -, -, e0, e1, -⟩ := idx_fixed t
  match a with
  | ⟨0, _⟩ => show win1_9.index t (0 : Fin 2) * 128 + 1 * (y 0).val = (y 0).val; rw [e0]; omega
  | ⟨1, _⟩ => show win1_9.index t (1 : Fin 2) * 128 + 1 * (y 1).val = (y 1).val; rw [e1]; omega

theorem blk_w10 (c : Dev nD) (t : Fin cfg1.N) : (iblk1 V c 10 t : Vec Ideal S128 .f32) = V c main_arg16 := by
  funext y
  show V c main_arg16 (((cfg1.win 10).blk t).view.emb y) = _
  refine congrArg (V c main_arg16) (funext fun a => Fin.ext ?_)
  obtain ⟨-, -, -, -, -, -, -, -, -, -, e0, -⟩ := idx_fixed t
  match a with
  | ⟨0, _⟩ => show win1_10.index t (0 : Fin 1) * 128 + 1 * (y 0).val = (y 0).val; rw [e0]; omega

theorem blk_w11 (c : Dev nD) (t : Fin cfg1.N) : (iblk1 V c 11 t : Vec Ideal S128x1 .f32) = V c main_arg17 := by
  funext y
  show V c main_arg17 (((cfg1.win 11).blk t).view.emb y) = _
  refine congrArg (V c main_arg17) (funext fun a => Fin.ext ?_)
  obtain ⟨-, -, -, -, -, -, -, -, -, -, -, e0, e1, -⟩ := idx_fixed t
  match a with
  | ⟨0, _⟩ => show win1_11.index t (0 : Fin 2) * 128 + 1 * (y 0).val = (y 0).val; rw [e0]; omega
  | ⟨1, _⟩ => show win1_11.index t (1 : Fin 2) * 1 + 1 * (y 1).val = (y 1).val; rw [e1]; omega

theorem blk_w12 (c : Dev nD) (t : Fin cfg1.N) : (iblk1 V c 12 t : Vec Ideal S1 .f32) = V c main_arg18 := by
  funext y
  show V c main_arg18 (((cfg1.win 12).blk t).view.emb y) = _
  refine congrArg (V c main_arg18) (funext fun a => Fin.ext ?_)
  obtain ⟨-, -, -, -, -, -, -, -, -, -, -, -, -, e0⟩ := idx_fixed t
  match a with
  | ⟨0, _⟩ => show win1_12.index t (0 : Fin 1) * 1 + 1 * (y 0).val = (y 0).val; rw [e0]; omega

/-! ### The updated features -/

/-- Where an element of the block at point `t` sits in the updated-features array. -/
theorem emb_h (t : Fin cfg1.N) (j : S2000x128.Idx) :
    ((cfg1.win 15).blk t).view.emb j = ix2 (rowOf t (j 0)) (j 1) := by
  refine funext fun a => Fin.ext ?_
  obtain ⟨-, -, -, -, -, -, -, -, -, -, -, -, e0, e1⟩ := idx_moving t
  match a with
  | ⟨0, _⟩ => show win1_15.index t (0 : Fin 2) * 2000 + 1 * (j 0).val = t.val * 2000 + (j 0).val; rw [e0]; omega
  | ⟨1, _⟩ => show win1_15.index t (1 : Fin 2) * 128 + 1 * (j 1).val = (j 1).val; rw [e1]; omega

/-- What point `t` writes back to the updated-features array is the node formula of the arrays, through its block. -/
theorem flushed_h (c : Dev nD) (t : Fin cfg1.N) :
    (dat1 (F := Ideal) V c).flushed 15 t = ((cfg1.win 15).blk t).view.read (Elt Ideal)
      (Cert.Egcl.nodeH (V c main_arg0) (V c main_v22) (V c main_v28) (V c main_v29) (V c main_arg9) (V c main_arg10) (V c main_arg11)) := by
  show (cfg1.win 15).cut (grid1.coords t) ((dat1 V c).after 15 t) = _
  rw [after1_15]
  unfold out1_15
  rw [View.canon_unit_zero zeros2]
  simp only [View.ld_unit_zero (S := S2000x128) zeros2, View.ld_unit_zero (S := S128x128) zeros2, View.ld_unit_zero (S := S128) zeros1]
  rw [pay4_eq, blk_w4, blk_w5, blk_w6, blk_w7, blk_w8]
  funext j
  show Cert.Egcl.nH (N := 2000) (iblk1 V c 0 t) (iblk1 V c 1 t) (V c main_v28) (V c main_v29) (V c main_arg9) (V c main_arg10) (V c main_arg11) (j 0) (j 1)
    = Cert.Egcl.nodeH (V c main_arg0) (V c main_v22) (V c main_v28) (V c main_v29) (V c main_arg9) (V c main_arg10) (V c main_arg11) (((cfg1.win 15).blk t).view.emb j)
  rw [emb_h]
  exact nH_rows _ _ _ _ _ _ _ _ _ (j 0) (rowOf t (j 0)) (fun k => blk_h V c t (j 0) k) (fun k => blk_agg V c t (j 0) k) (j 1)

/-- An index of the updated-features array is in point `t`'s block iff each coordinate is in the block's range. -/
theorem mem_blk_h (t : Fin cfg1.N) (i : S50000x128.Idx) :
    i ∈ ((cfg1.win 15).blk t).view.set ↔ ∀ a : Fin 2, win1_15.index t a * S2000x128.size a ≤ (i a).val ∧ (i a).val < win1_15.index t a * S2000x128.size a + S2000x128.size a := by
  show i ∈ ((View.whole main_v30_2).slice (win1_15.rect t)).set ↔ _
  rw [View.set_slice_whole, Rect.mem_set_unit]
  exact Iff.rfl

/-- The point whose block holds row `r`. -/
def pointOf (r : Fin 50000) : Fin cfg1.N :=
  ⟨r.val / 2000, by have h : cfg1.N = 25 := N_1; have := r.isLt; omega⟩

/-- Every index of the updated-features array lies in the block of the point its row names. -/
theorem cover_h (i : S50000x128.Idx) : ∃ t : Fin cfg1.N, (cfg1.win 15).flush t = true ∧ i ∈ ((cfg1.win 15).blk t).view.set := by
  have hi0 : (i 0).val < 50000 := idx2_lt0 i
  have hi1 : (i 1).val < 128 := idx2_lt1 i
  refine ⟨pointOf ⟨(i 0).val, hi0⟩, flush1_15 _, ?_⟩
  rw [mem_blk_h]
  obtain ⟨-, -, -, -, -, -, -, -, -, -, -, -, e0, e1⟩ := idx_moving (pointOf ⟨(i 0).val, hi0⟩)
  have ht : (pointOf ⟨(i 0).val, hi0⟩).val = (i 0).val / 2000 := rfl
  intro a
  match a with
  | ⟨0, _⟩ =>
    show win1_15.index (pointOf ⟨(i 0).val, hi0⟩) (0 : Fin 2) * 2000 ≤ (i 0).val ∧ (i 0).val < win1_15.index (pointOf ⟨(i 0).val, hi0⟩) (0 : Fin 2) * 2000 + 2000
    rw [e0, ht]; omega
  | ⟨1, _⟩ =>
    show win1_15.index (pointOf ⟨(i 0).val, hi0⟩) (1 : Fin 2) * 128 ≤ (i 1).val ∧ (i 1).val < win1_15.index (pointOf ⟨(i 0).val, hi0⟩) (1 : Fin 2) * 128 + 128
    rw [e1]; omega

/-- When the region ends, the updated-features array holds the node formula of the arrays the region was entered with. -/
theorem node_h (c : Dev nD) : (dat1 (F := Ideal) V c).arrAt 15 cfg1.N
    = Cert.Egcl.nodeH (V c main_arg0) (V c main_v22) (V c main_v28) (V c main_v29) (V c main_arg9) (V c main_arg10) (V c main_arg11) :=
  (dat1 (F := Ideal) V c).arrAt_eq_of_cover 15 _ (fun t _ => flushed_h V c t) cover_h

/-! ### The velocity column -/

theorem emb_vel (t : Fin cfg1.N) (j : S2000x1.Idx) :
    ((cfg1.win 13).blk t).view.emb j = ix2 (rowOf t (j 0)) (j 1) := by
  refine funext fun a => Fin.ext ?_
  obtain ⟨-, -, -, -, -, -, -, -, e0, e1, -⟩ := idx_moving t
  match a with
  | ⟨0, _⟩ => show win1_13.index t (0 : Fin 2) * 2000 + 1 * (j 0).val = t.val * 2000 + (j 0).val; rw [e0]; omega
  | ⟨1, _⟩ => show win1_13.index t (1 : Fin 2) * 1 + 1 * (j 1).val = (j 1).val; rw [e1]; omega

/-- What point `t` writes back to the velocity array is the node formula of the arrays, through its block. -/
theorem flushed_vel (c : Dev nD) (t : Fin cfg1.N) :
    (dat1 (F := Ideal) V c).flushed 13 t = ((cfg1.win 13).blk t).view.read (Elt Ideal)
      (Cert.Egcl.nodeVel (V c main_arg0) (V c main_arg15) (V c main_arg16) (V c main_arg17) (V c main_arg18)) := by
  show (cfg1.win 13).cut (grid1.coords t) ((dat1 V c).after 13 t) = _
  rw [after1_13]
  unfold out1_13
  rw [View.canon_unit_zero zeros2]
  simp only [View.ld_unit_zero (S := S2000x128) zeros2, View.ld_unit_zero (S := S128x128) zeros2, View.ld_unit_zero (S := S128) zeros1,
    View.ld_unit_zero (S := S128x1) zeros2, View.ld_unit_zero (S := S1) zeros1]
  rw [pay1_eq, blk_w9, blk_w10, blk_w11, blk_w12]
  funext j
  show Cert.Egcl.nVel (N := 2000) (iblk1 V c 0 t) (V c main_arg15) (V c main_arg16) (V c main_arg17) (V c main_arg18) (j 0)
    = Cert.Egcl.nodeVel (V c main_arg0) (V c main_arg15) (V c main_arg16) (V c main_arg17) (V c main_arg18) (((cfg1.win 13).blk t).view.emb j)
  rw [emb_vel]
  exact nVel_rows _ _ _ _ _ _ (j 0) (rowOf t (j 0)) (fun k => blk_h V c t (j 0) k)

theorem mem_blk_vel (t : Fin cfg1.N) (i : S50000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v30_0).slice (win1_13.rect t)).set ↔ _
  rw [View.set_slice_whole, Rect.mem_set_unit]
  exact Iff.rfl

theorem cover_vel (i : S50000x1.Idx) : ∃ t : Fin cfg1.N, (cfg1.win 13).flush t = true ∧ i ∈ ((cfg1.win 13).blk t).view.set := by
  have hi0 : (i 0).val < 50000 := idx2_lt0 i
  have hi1 : (i 1).val < 1 := idx2_lt1 i
  refine ⟨pointOf ⟨(i 0).val, hi0⟩, flush1_13 _, ?_⟩
  rw [mem_blk_vel]
  obtain ⟨-, -, -, -, -, -, -, -, e0, e1, -⟩ := idx_moving (pointOf ⟨(i 0).val, hi0⟩)
  have ht : (pointOf ⟨(i 0).val, hi0⟩).val = (i 0).val / 2000 := rfl
  intro a
  match a with
  | ⟨0, _⟩ =>
    show win1_13.index (pointOf ⟨(i 0).val, hi0⟩) (0 : Fin 2) * 2000 ≤ (i 0).val ∧ (i 0).val < win1_13.index (pointOf ⟨(i 0).val, hi0⟩) (0 : Fin 2) * 2000 + 2000
    rw [e0, ht]; omega
  | ⟨1, _⟩ =>
    show win1_13.index (pointOf ⟨(i 0).val, hi0⟩) (1 : Fin 2) * 1 ≤ (i 1).val ∧ (i 1).val < win1_13.index (pointOf ⟨(i 0).val, hi0⟩) (1 : Fin 2) * 1 + 1
    rw [e1]; omega

/-- When the region ends, the velocity array holds the node formula of the arrays the region was entered with. -/
theorem node_vel (c : Dev nD) : (dat1 (F := Ideal) V c).arrAt 13 cfg1.N
    = Cert.Egcl.nodeVel (V c main_arg0) (V c main_arg15) (V c main_arg16) (V c main_arg17) (V c main_arg18) :=
  (dat1 (F := Ideal) V c).arrAt_eq_of_cover 13 _ (fun t _ => flushed_vel V c t) cover_vel

/-! ### The mean translation -/

theorem emb_force (t : Fin cfg1.N) (j : S2000x3.Idx) :
    ((cfg1.win 14).blk t).view.emb j = ix2 (rowOf t (j 0)) (j 1) := by
  refine funext fun a => Fin.ext ?_
  obtain ⟨-, -, -, -, -, -, -, -, -, -, e0, e1, -⟩ := idx_moving t
  match a with
  | ⟨0, _⟩ => show win1_14.index t (0 : Fin 2) * 2000 + 1 * (j 0).val = t.val * 2000 + (j 0).val; rw [e0]; omega
  | ⟨1, _⟩ => show win1_14.index t (1 : Fin 2) * 3 + 1 * (j 1).val = (j 1).val; rw [e1]; omega

/-- What point `t` writes back to the mean-translation array is the node formula of the arrays, through its block. -/
theorem flushed_force (c : Dev nD) (t : Fin cfg1.N) :
    (dat1 (F := Ideal) V c).flushed 14 t = ((cfg1.win 14).blk t).view.read (Elt Ideal)
      (Cert.Egcl.nodeForce (V c main_v26) (V c main_v27)) := by
  show (cfg1.win 14).cut (grid1.coords t) ((dat1 V c).after 14 t) = _
  rw [after1_14]
  unfold out1_14
  rw [View.canon_unit_zero zeros2]
  simp only [View.ld_unit_zero (S := S2000x3) zeros2, View.ld_unit_zero (S := S2000x1) zeros2]
  rw [pay2_eq]
  funext j
  show Cert.Egcl.nForce (N := 2000) (iblk1 V c 2 t) (iblk1 V c 3 t) (j 0) (j 1)
    = Cert.Egcl.nodeForce (V c main_v26) (V c main_v27) (((cfg1.win 14).blk t).view.emb j)
  rw [emb_force]
  exact nForce_rows _ _ _ _ (j 0) (rowOf t (j 0)) (fun d => blk_fsum V c t (j 0) d) (blk_cnt V c t (j 0) 0) (j 1)

theorem mem_blk_force (t : Fin cfg1.N) (i : S50000x3.Idx) :
    i ∈ ((cfg1.win 14).blk t).view.set ↔ ∀ a : Fin 2, win1_14.index t a * S2000x3.size a ≤ (i a).val ∧ (i a).val < win1_14.index t a * S2000x3.size a + S2000x3.size a := by
  show i ∈ ((View.whole main_v30_1).slice (win1_14.rect t)).set ↔ _
  rw [View.set_slice_whole, Rect.mem_set_unit]
  exact Iff.rfl

theorem cover_force (i : S50000x3.Idx) : ∃ t : Fin cfg1.N, (cfg1.win 14).flush t = true ∧ i ∈ ((cfg1.win 14).blk t).view.set := by
  have hi0 : (i 0).val < 50000 := idx2_lt0 i
  have hi1 : (i 1).val < 3 := idx2_lt1 i
  refine ⟨pointOf ⟨(i 0).val, hi0⟩, flush1_14 _, ?_⟩
  rw [mem_blk_force]
  obtain ⟨-, -, -, -, -, -, -, -, -, -, e0, e1, -⟩ := idx_moving (pointOf ⟨(i 0).val, hi0⟩)
  have ht : (pointOf ⟨(i 0).val, hi0⟩).val = (i 0).val / 2000 := rfl
  intro a
  match a with
  | ⟨0, _⟩ =>
    show win1_14.index (pointOf ⟨(i 0).val, hi0⟩) (0 : Fin 2) * 2000 ≤ (i 0).val ∧ (i 0).val < win1_14.index (pointOf ⟨(i 0).val, hi0⟩) (0 : Fin 2) * 2000 + 2000
    rw [e0, ht]; omega
  | ⟨1, _⟩ =>
    show win1_14.index (pointOf ⟨(i 0).val, hi0⟩) (1 : Fin 2) * 3 ≤ (i 1).val ∧ (i 1).val < win1_14.index (pointOf ⟨(i 0).val, hi0⟩) (1 : Fin 2) * 3 + 3
    rw [e1]; omega

/-- When the region ends, the mean-translation array holds the node formula of the arrays the region was entered with. -/
theorem node_force (c : Dev nD) : (dat1 (F := Ideal) V c).arrAt 14 cfg1.N = Cert.Egcl.nodeForce (V c main_v26) (V c main_v27) :=
  (dat1 (F := Ideal) V c).arrAt_eq_of_cover 14 _ (fun t _ => flushed_force V c t) cover_force

end Arrays

end Cert.KernelIdeal.NodeValue

end
-- ==== Proof.KValue.lean ====
/-
  What @main returns, as functions of the launch memory.

  The edge region leaves the message matrix and the translation matrix of the gathered endpoint rows, the coordinate
  differences and the cut first weight. The host then segment-sums them, and the node region leaves, of the features,
  those sums and the cut node weight: the velocity column, the mean translations and the updated features. Each
  returned buffer is read off region 1's exit contents, each region's value is taken at the contents the region was
  entered with, and those contents are read back to the launch memory.
-/
import proofs.«117344_j13692355739802_1_alg».proof.Proof.KHost
import proofs.«117344_j13692355739802_1_alg».proof.Proof.EdgeValue
import proofs.«117344_j13692355739802_1_alg».proof.Proof.NodeValue
import proofs.«117344_j13692355739802_1_alg».proof.Proof.Spec

noncomputable section

namespace Cert.KernelIdeal.KValue

open Cert.KernelIdeal Cert.KernelIdeal.Gen Cert.KernelIdeal.HostValue
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The message matrix of the launch memory. -/
def msgs (c : Dev nD) : Cert.Egcl.M2 800000 128 :=
  Cert.Egcl.edgeM (Host.gather gather_S50000x128_S800000x1_S800000x128_1_0_n_n_0_1_1128 (m ((c : Thread nD τ).loc main_arg0)) (wrapCol (m ((c : Thread nD τ).loc main_arg2)))) (Host.gather gather_S50000x128_S800000x1_S800000x128_1_0_n_n_0_1_1128 (m ((c : Thread nD τ).loc main_arg0)) (wrapCol (m ((c : Thread nD τ).loc main_arg3)))) (m ((c : Thread nD τ).loc main_arg1))
      (extractStridedSlice S128x128 ![0, 0] (m ((c : Thread nD τ).loc main_arg4)) slices_S257x128_S128x128_0_0)
      (extractStridedSlice S128x128 ![128, 0] (m ((c : Thread nD τ).loc main_arg4)) slices_S257x128_S128x128_128_0)
      (extractStridedSlice S1x128 ![256, 0] (m ((c : Thread nD τ).loc main_arg4)) slices_S257x128_S1x128_256_0) (m ((c : Thread nD τ).loc main_arg5)) (m ((c : Thread nD τ).loc main_arg6)) (m ((c : Thread nD τ).loc main_arg7))

/-- The translation matrix of the launch memory. -/
def trans (c : Dev nD) : Cert.Egcl.M2 800000 3 :=
  Cert.Egcl.edgeT (Host.gather gather_S50000x128_S800000x1_S800000x128_1_0_n_n_0_1_1128 (m ((c : Thread nD τ).loc main_arg0)) (wrapCol (m ((c : Thread nD τ).loc main_arg2)))) (Host.gather gather_S50000x128_S800000x1_S800000x128_1_0_n_n_0_1_1128 (m ((c : Thread nD τ).loc main_arg0)) (wrapCol (m ((c : Thread nD τ).loc main_arg3)))) (m ((c : Thread nD τ).loc main_arg1))
      (extractStridedSlice S128x128 ![0, 0] (m ((c : Thread nD τ).loc main_arg4)) slices_S257x128_S128x128_0_0)
      (extractStridedSlice S128x128 ![128, 0] (m ((c : Thread nD τ).loc main_arg4)) slices_S257x128_S128x128_128_0)
      (extractStridedSlice S1x128 ![256, 0] (m ((c : Thread nD τ).loc main_arg4)) slices_S257x128_S1x128_256_0) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14))

/-- The edge region's first output array is the message matrix. -/
theorem msgs_eq (c : Dev nD) : (dat0 (V1 m ρ) c).arrAt 12 cfg0.N = msgs m c := by
  rw [Cert.KernelIdeal.EdgeValue.edge_m (V1 m ρ) c, V1_v6 m ρ c, V1_v13 m ρ c, V1_arg1 m ρ c, V1_v14 m ρ c, V1_v15 m ρ c,
    V1_v16 m ρ c, V1_arg5 m ρ c, V1_arg6 m ρ c, V1_arg7 m ρ c]
  rfl

/-- The edge region's second output array is the translation matrix. -/
theorem trans_eq (c : Dev nD) : (dat0 (V1 m ρ) c).arrAt 13 cfg0.N = trans m c := by
  rw [Cert.KernelIdeal.EdgeValue.edge_t (V1 m ρ) c, V1_v6 m ρ c, V1_v13 m ρ c, V1_arg1 m ρ c, V1_v14 m ρ c, V1_v15 m ρ c,
    V1_v16 m ρ c, V1_arg5 m ρ c, V1_arg6 m ρ c, V1_arg7 m ρ c, V1_arg12 m ρ c, V1_arg13 m ρ c, V1_arg14 m ρ c]
  rfl

/-- The returned velocity column. -/
theorem vel_eq (c : Dev nD) : W4 m ρ c (Proc.devRef .tc main_v30_0)
    = Cert.Egcl.nodeVel (m ((c : Thread nD τ).loc main_arg0)) (m ((c : Thread nD τ).loc main_arg15)) (m ((c : Thread nD τ).loc main_arg16)) (m ((c : Thread nD τ).loc main_arg17)) (m ((c : Thread nD τ).loc main_arg18)) := by
  rw [(W4_arr m ρ c 13 : W4 m ρ c (Proc.devRef .tc main_v30_0) = _), Cert.KernelIdeal.NodeValue.node_vel (V3 m ρ) c,
    V3_arg0 m ρ c, V3_arg15 m ρ c, V3_arg16 m ρ c, V3_arg17 m ρ c, V3_arg18 m ρ c]

/-- The returned mean translations. -/
theorem force_eq (c : Dev nD) : W4 m ρ c (Proc.devRef .tc main_v30_1)
    = Cert.Egcl.nodeForce
        (extractStridedSlice S50000x3 ![0, 0] (fusedSum (rawCol (m ((c : Thread nD τ).loc main_arg2))) (trans m c)) slices_S50000x4_S50000x3_0_0)
        (extractStridedSlice S50000x1 ![0, 3] (fusedSum (rawCol (m ((c : Thread nD τ).loc main_arg2))) (trans m c)) slices_S50000x4_S50000x1_0_3) := by
  rw [(W4_arr m ρ c 14 : W4 m ρ c (Proc.devRef .tc main_v30_1) = _), Cert.KernelIdeal.NodeValue.node_force (V3 m ρ) c,
    V3_v26 m ρ c, V3_v27 m ρ c, trans_eq m ρ c]

/-- The returned updated features. -/
theorem h_eq (c : Dev nD) : W4 m ρ c (Proc.devRef .tc main_v30_2)
    = Cert.Egcl.nodeH (m ((c : Thread nD τ).loc main_arg0))
        (Host.scatterAdd scatter_S50000x128_S800000x1_S800000x128_1_0_0_1
          (broadcastInDim S50000x128 ![] bcast_S_S50000x128 (constant (F := Ideal) S_ .f32 0x00000000#32)) (rawCol (F := Ideal) (m ((c : Thread nD τ).loc main_arg2))) (msgs m c))
        (extractStridedSlice S128x128 ![0, 0] (m ((c : Thread nD τ).loc main_arg8)) slices_S256x128_S128x128_0_0)
        (extractStridedSlice S128x128 ![128, 0] (m ((c : Thread nD τ).loc main_arg8)) slices_S256x128_S128x128_128_0) (m ((c : Thread nD τ).loc main_arg9)) (m ((c : Thread nD τ).loc main_arg10)) (m ((c : Thread nD τ).loc main_arg11)) := by
  rw [(W4_arr m ρ c 15 : W4 m ρ c (Proc.devRef .tc main_v30_2) = _), Cert.KernelIdeal.NodeValue.node_h (V3 m ρ) c,
    V3_arg0 m ρ c, V3_v22 m ρ c, V3_v28 m ρ c, V3_v29 m ρ c, V3_arg9 m ρ c, V3_arg10 m ρ c, V3_arg11 m ρ c, msgs_eq m ρ c]

end Cert.KernelIdeal.KValue

end
-- ==== Proof.Cross.lean ====
/-
  The two programs spell the same host operations, each over its own copy of the shape vocabulary.

  Both programs gather the endpoint rows with the same wrapped column of row numbers, scatter-add at the same raw
  column of row numbers into the same zero arrays, and cut weights at the same rows. The dimension-number records and
  the shape facts of the two printed programs are separate constants with the same literal contents, so each
  identification is an unfolding of definitions. A row slice of a matrix is `rowsFrom`: entry `(p, q)` of the cut
  from row `o` is entry `(o + p, q)` of the source.
-/
import proofs.«117344_j13692355739802_1_alg».proof.Proof.KHost
import proofs.«117344_j13692355739802_1_alg».proof.Proof.Gen.ReferenceIdeal.Read
import proofs.«117344_j13692355739802_1_alg».proof.Proof.Spec
import Idealize.ShloMosaic.Lib.ValueLayout

noncomputable section

namespace Cert.Cross

open Idealize.ShloMosaic Idealize.ShloMosaic.ValueIdx
open Cert.KernelIdeal.HostValue

/-- Rows `o … o + a - 1` cut out of a matrix are `rowsFrom`. -/
theorem slice_rows {n b a o : Nat} (h : (⟨2, ![n, b]⟩ : Shape).Slices ![o, 0] ⟨2, ![a, b]⟩) (hb : o + a ≤ n)
    (X : Cert.Egcl.M2 n b) :
    extractStridedSlice ⟨2, ![a, b]⟩ ![o, 0] X h = Cert.Egcl.rowsFrom a o hb X := by
  funext i
  obtain ⟨p, q, rfl⟩ : ∃ (p : Fin a) (q : Fin b), i = ix2 p q := ⟨i 0, i 1, eq_ix2 i⟩
  exact slice2_axis0_apply o X h p q ⟨o + p.val, by omega⟩ rfl

section
variable (x0 : FVec Ideal Cert.ReferenceIdeal.S50000x128 .f32) (x2 : IVec Cert.ReferenceIdeal.S800000 32)

/-- The kernel program's gather of the rows at the wrapped row numbers is the reference's. -/
theorem gather_first : Host.gather Cert.KernelIdeal.gather_S50000x128_S800000x1_S800000x128_1_0_n_n_0_1_1128 x0 (wrapCol (F := Ideal) x2)
    = Cert.ReferenceIdeal.Read.val_main_v9 (F := Ideal) x0 x2 := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_c Cert.ReferenceIdeal.Read.val_main_c_0 wrapCol
  rfl

/-- The same for the second endpoint's rows. -/
theorem gather_second : Host.gather Cert.KernelIdeal.gather_S50000x128_S800000x1_S800000x128_1_0_n_n_0_1_1128 x0 (wrapCol (F := Ideal) x2)
    = Cert.ReferenceIdeal.Read.val_main_v16 (F := Ideal) x0 x2 := by
  unfold Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_c_1 Cert.ReferenceIdeal.Read.val_main_c_2 wrapCol
  rfl

/-- The raw column of row numbers is the one each of the reference's three segment sums takes. -/
theorem raw38 : rawCol (F := Ideal) x2 = Cert.ReferenceIdeal.Read.val_main_v38 (F := Ideal) x2 := rfl
theorem raw42 : rawCol (F := Ideal) x2 = Cert.ReferenceIdeal.Read.val_main_v42 (F := Ideal) x2 := rfl
theorem raw48 : rawCol (F := Ideal) x2 = Cert.ReferenceIdeal.Read.val_main_v48 (F := Ideal) x2 := rfl
end

/-- The message segment sum: the same scatter-add into the same zero array. -/
theorem agg_eq (idx : IVec Cert.ReferenceIdeal.S800000x1 32) (M : FVec Ideal Cert.ReferenceIdeal.S800000x128 .f32) :
    Host.scatterAdd Cert.KernelIdeal.scatter_S50000x128_S800000x1_S800000x128_1_0_0_1
        (broadcastInDim Cert.KernelIdeal.S50000x128 ![] Cert.KernelIdeal.Facts₀.bcast_S_S50000x128 (constant (F := Ideal) Cert.KernelIdeal.S_ .f32 0x00000000#32)) idx M
      = Host.scatterAdd Cert.ReferenceIdeal.scatter_S50000x128_S800000x1_S800000x128_1_0_0_1
          (Cert.ReferenceIdeal.Read.val_main_v47 (F := Ideal)) idx M := by
  unfold Cert.ReferenceIdeal.Read.val_main_v47 Cert.ReferenceIdeal.Read.val_main_cst_9
  rfl

end Cert.Cross

end
-- ==== Proof.RefEdge.lean ====
/-
  The edge stage of the reference, read index by index.

  For edge `e` the reference forms the 257-vector `[a | b | r]` from the two gathered feature rows and the squared
  length `r` of the coordinate difference, multiplies it by the whole first weight and adds the bias. A sum over
  257 indices is the sum over the first 128, plus the next 128, plus the last term, and on each of the three ranges
  the joined vector is one of its pieces; so that product is `a·Wa + b·Wb + r·wc` with `Wa`, `Wb`, `wc` the
  weight's row blocks. Each later layer is a 128-term sum against a weight plus a bias, followed by
  `x · (1 / (1 + e⁻ˣ))`, which is `x · σ(x)` by the definition of the logistic function. The last step multiplies the
  coordinate difference by the scalar coefficient and clamps between the two bounds. The gathered rows are never
  opened: every statement is over the same two arrays.
-/
import proofs.«117344_j13692355739802_1_alg».proof.Proof.Gen.ReferenceIdeal.Read
import proofs.«117344_j13692355739802_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefEdge

open Idealize.ShloMosaic Idealize.ShloMosaic.TcCoe Idealize.SL.Sem Idealize.ShloMosaic.ValueIdx
open Cert.ReferenceIdeal Cert.ReferenceIdeal.Gen Cert.ReferenceIdeal.Read

/-- `y · (1 / (1 + e⁻ʸ))`, with the two ones spelled as float words, is `y · σ(y)`: the word of one is `1`, and `σ` is defined as that quotient. -/
theorem silu_host (y : EReal) :
    y * Ideal.div (Ideal.ofBits .f32 0x3F800000#32) (Ideal.ofBits .f32 0x3F800000#32 + Ideal.exp (-y)) = Cert.Egcl.silu y := by
  rw [Ideal.ofBits_one_f32]; rfl

/-- The joined 257-wide row at a column below 128 is the first piece at that column. -/
theorem cat_left (A B : FVec Ideal S800000x128 .f32) (C : FVec Ideal S800000x1 .f32) (e : Fin 800000) (k : Fin 128) :
    concatenate S800000x257 1 [⟨S800000x128, A⟩, ⟨S800000x128, B⟩, ⟨S800000x1, C⟩]
        concatenates_S800000x128_S800000x128_S800000x1_S800000x257_d1 (ix2 e ⟨k.val, by omega⟩) = A (ix2 e k) := by
  refine concatenate_apply_piece (t := S800000x257) 1 [⟨S800000x128, A⟩, ⟨S800000x128, B⟩, ⟨S800000x1, C⟩] _ _ 0 (by show (0 : Nat) < 3; omega) S800000x128 A rfl rfl 0 rfl (ix2 e k) ?_ ?_
  · intro b hb
    match b with
    | ⟨0, _⟩ => rfl
    | ⟨1, _⟩ => exact absurd rfl hb
  · exact Nat.zero_add _

/-- The joined row at column `128 + k` is the second piece at column `k`: 128 columns precede it. -/
theorem cat_mid (A B : FVec Ideal S800000x128 .f32) (C : FVec Ideal S800000x1 .f32) (e : Fin 800000) (k : Fin 128) :
    concatenate S800000x257 1 [⟨S800000x128, A⟩, ⟨S800000x128, B⟩, ⟨S800000x1, C⟩]
        concatenates_S800000x128_S800000x128_S800000x1_S800000x257_d1 (ix2 e ⟨128 + k.val, by omega⟩) = B (ix2 e k) := by
  refine concatenate_apply_piece (t := S800000x257) 1 [⟨S800000x128, A⟩, ⟨S800000x128, B⟩, ⟨S800000x1, C⟩] _ _ 1 (by show (1 : Nat) < 3; omega) S800000x128 B rfl rfl 128 rfl (ix2 e k) ?_ ?_
  · intro b hb
    match b with
    | ⟨0, _⟩ => rfl
    | ⟨1, _⟩ => exact absurd rfl hb
  · rfl

/-- The joined row at column 256 is the third piece's only column: 256 columns precede it. -/
theorem cat_last (A B : FVec Ideal S800000x128 .f32) (C : FVec Ideal S800000x1 .f32) (e : Fin 800000) :
    concatenate S800000x257 1 [⟨S800000x128, A⟩, ⟨S800000x128, B⟩, ⟨S800000x1, C⟩]
        concatenates_S800000x128_S800000x128_S800000x1_S800000x257_d1 (ix2 e ⟨256, by omega⟩) = C (ix2 e (0 : Fin 1)) := by
  refine concatenate_apply_piece (t := S800000x257) 1 [⟨S800000x128, A⟩, ⟨S800000x128, B⟩, ⟨S800000x1, C⟩] _ _ 2 (by show (2 : Nat) < 3; omega) S800000x1 C rfl rfl 256 rfl (ix2 e (0 : Fin 1)) ?_ ?_
  · intro b hb
    match b with
    | ⟨0, _⟩ => rfl
    | ⟨1, _⟩ => exact absurd rfl hb
  · rfl

section
variable (x0 : FVec Ideal S50000x128 .f32) (x1 : FVec Ideal S800000x3 .f32) (x2 x3 : IVec S800000 32)
  (x4 : FVec Ideal S257x128 .f32) (x5 : FVec Ideal S128 .f32) (x6 : FVec Ideal S128x128 .f32) (x7 : FVec Ideal S128 .f32)
  (x12 : FVec Ideal S128x128 .f32) (x13 : FVec Ideal S128 .f32) (x14 : FVec Ideal S128x1 .f32)

/-- The squared length: the sum from the zero word of the three squares is the plain sum, since the zero word is `0`. -/
theorem v2_radial (e : Fin 800000) :
    val_main_v2 (F := Ideal) x1 (ix2 e (0 : Fin 1)) = Cert.Egcl.radial x1 e := by
  rw [val_main_v2_apply, val_main_v1_apply, val_main_cst_apply, Ideal.ofBits_def, Ideal.ofBits_zero_f32, zero_add]
  refine Finset.sum_congr rfl fun d _ => ?_
  have hi : idx_main_v1 (idx_main_v2 (ix2 e (0 : Fin 1))) d = ix2 e d :=
    funext fun a => Fin.ext (by match a with | ⟨0, _⟩ => rfl | ⟨1, _⟩ => rfl)
  rw [hi, val_main_v0_apply]
  rfl

/-- Columns `0 … 127` of the joined array are the first endpoint's feature row. -/
theorem v17_left (e : Fin 800000) (k : Fin 128) :
    val_main_v17 (F := Ideal) x0 x1 x2 x3 (ix2 e ⟨k.val, by omega⟩) = val_main_v9 (F := Ideal) x0 x2 (ix2 e k) := by
  unfold val_main_v17
  exact cat_left _ _ _ e k

/-- Columns `128 … 255` of the joined array are the second endpoint's feature row. -/
theorem v17_mid (e : Fin 800000) (k : Fin 128) :
    val_main_v17 (F := Ideal) x0 x1 x2 x3 (ix2 e ⟨128 + k.val, by omega⟩) = val_main_v16 (F := Ideal) x0 x3 (ix2 e k) := by
  unfold val_main_v17
  exact cat_mid _ _ _ e k

/-- Column 256 of the joined array is the squared length. -/
theorem v17_last (e : Fin 800000) :
    val_main_v17 (F := Ideal) x0 x1 x2 x3 (ix2 e ⟨256, by omega⟩) = Cert.Egcl.radial x1 e := by
  unfold val_main_v17
  rw [cat_last _ _ _ e]
  exact v2_radial x1 e

end

section
variable (x0 : FVec Ideal S50000x128 .f32) (x1 : FVec Ideal S800000x3 .f32) (x2 x3 : IVec S800000 32)
  (x4 : FVec Ideal S257x128 .f32) (x5 : FVec Ideal S128 .f32) (x6 : FVec Ideal S128x128 .f32) (x7 : FVec Ideal S128 .f32)
  (x12 : FVec Ideal S128x128 .f32) (x13 : FVec Ideal S128 .f32) (x14 : FVec Ideal S128x1 .f32)

/-- The first layer before its activation: the 257-term product splits into the two 128-term blocks and the last term,
    each read from its piece and from the matching rows of the weight; the bias is read at the column. -/
theorem v21_x1 (e : Fin 800000) (j : Fin 128) :
    val_main_v21 (F := Ideal) x0 x1 x2 x3 x4 x5 (ix2 e j)
      = Cert.Egcl.eX1 (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 e j := by
  rw [val_main_v21_apply, val_main_v18_apply, val_main_v20_apply, val_main_v19_apply, Ideal.addf_def,
    Cert.Egcl.sum_split257]
  have hl : ∀ k : Fin 257, lidx_main_v18 (ix2 e j) k = ix2 e k := fun k =>
    funext fun a => Fin.ext (by match a with | ⟨0, _⟩ => rfl | ⟨1, _⟩ => rfl)
  have hr : ∀ k : Fin 257, ridx_main_v18 (ix2 e j) k = ix2 k j := fun k =>
    funext fun a => Fin.ext (by match a with | ⟨0, _⟩ => rfl | ⟨1, _⟩ => rfl)
  have hb : idx_main_v19 (idx_main_v20 (ix2 e j)) = ix1 j :=
    funext fun a => Fin.ext (by match a with | ⟨0, _⟩ => rfl)
  simp only [hl, hr, hb, v17_left, v17_mid, v17_last]
  unfold Cert.Egcl.eX1
  simp only [Cert.Egcl.rowsFrom_apply, Nat.zero_add]
  rfl

/-- The first activation, at any index, is `x · σ(x)` of the value below it. -/
theorem v22_silu (i : S800000x128.Idx) :
    val_main_v22 (F := Ideal) x0 x1 x2 x3 x4 x5 i
      = Cert.Egcl.silu (val_main_v21 (F := Ideal) x0 x1 x2 x3 x4 x5 i) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply]
  generalize val_main_v21 (F := Ideal) x0 x1 x2 x3 x4 x5 i = y
  exact silu_host y

/-- The second layer before its activation: the 128-term sum of the activated first layer against the weight, plus the bias. -/
theorem v26_x2 (e : Fin 800000) (j : Fin 128) :
    val_main_v26 (F := Ideal) x0 x1 x2 x3 x4 x5 x6 x7 (ix2 e j)
      = Cert.Egcl.eX2 (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 e j := by
  rw [val_main_v26_apply, val_main_v23_apply, val_main_v25_apply, val_main_v24_apply, Ideal.addf_def]
  have hl : ∀ k : Fin 128, lidx_main_v23 (ix2 e j) k = ix2 e k := fun k => funext fun a => Fin.ext (by match a with | ⟨0, _⟩ => rfl | ⟨1, _⟩ => rfl)
  have hr : ∀ k : Fin 128, ridx_main_v23 (ix2 e j) k = ix2 k j := fun k => funext fun a => Fin.ext (by match a with | ⟨0, _⟩ => rfl | ⟨1, _⟩ => rfl)
  have hb : idx_main_v24 (idx_main_v25 (ix2 e j)) = ix1 j :=
    funext fun a => Fin.ext (by match a with | ⟨0, _⟩ => rfl)
  simp only [hl, hr, hb, v22_silu, v21_x1]
  rfl

/-- The message: `x · σ(x)` of the second layer. -/
theorem v27_m (e : Fin 800000) (j : Fin 128) :
    val_main_v27 (F := Ideal) x0 x1 x2 x3 x4 x5 x6 x7 (ix2 e j)
      = Cert.Egcl.eM (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 e j := by
  rw [val_main_v27_apply, val_main_call1_v5_apply, val_main_call1_v4_apply, val_main_call1_cst_0_apply,
    val_main_call1_v3_apply, val_main_call1_v2_apply, val_main_call1_cst_apply, val_main_call1_v1_apply,
    val_main_call1_v0_apply, v26_x2]
  exact silu_host _

/-- The coefficient layer before its activation: the 128-term sum of the message against the weight, plus the bias. -/
theorem v31_c1 (e : Fin 800000) (j : Fin 128) :
    val_main_v31 (F := Ideal) x0 x1 x2 x3 x4 x5 x6 x7 x12 x13 (ix2 e j)
      = Cert.Egcl.eC1 (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 x12 x13 e j := by
  rw [val_main_v31_apply, val_main_v28_apply, val_main_v30_apply, val_main_v29_apply, Ideal.addf_def]
  have hl : ∀ k : Fin 128, lidx_main_v28 (ix2 e j) k = ix2 e k := fun k => funext fun a => Fin.ext (by match a with | ⟨0, _⟩ => rfl | ⟨1, _⟩ => rfl)
  have hr : ∀ k : Fin 128, ridx_main_v28 (ix2 e j) k = ix2 k j := fun k => funext fun a => Fin.ext (by match a with | ⟨0, _⟩ => rfl | ⟨1, _⟩ => rfl)
  have hb : idx_main_v29 (idx_main_v30 (ix2 e j)) = ix1 j :=
    funext fun a => Fin.ext (by match a with | ⟨0, _⟩ => rfl)
  simp only [hl, hr, hb, v27_m]
  rfl

/-- The activated coefficient layer. -/
theorem v32_silu (e : Fin 800000) (j : Fin 128) :
    val_main_v32 (F := Ideal) x0 x1 x2 x3 x4 x5 x6 x7 x12 x13 (ix2 e j)
      = Cert.Egcl.silu (Cert.Egcl.eC1 (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 x12 x13 e j) := by
  rw [val_main_v32_apply, val_main_call2_v5_apply, val_main_call2_v4_apply, val_main_call2_cst_0_apply,
    val_main_call2_v3_apply, val_main_call2_v2_apply, val_main_call2_cst_apply, val_main_call2_v1_apply,
    val_main_call2_v0_apply, v31_c1]
  exact silu_host _

/-- The scalar coefficient: the 128-term sum of the activated coefficient layer against the one-column weight. -/
theorem v33_coef (e : Fin 800000) :
    val_main_v33 (F := Ideal) x0 x1 x2 x3 x4 x5 x6 x7 x12 x13 x14 (ix2 e (0 : Fin 1))
      = Cert.Egcl.eCoef (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 x12 x13 x14 e := by
  rw [val_main_v33_apply]
  have hl : ∀ k : Fin 128, lidx_main_v33 (ix2 e (0 : Fin 1)) k = ix2 e k := fun k => funext fun a => Fin.ext (by match a with | ⟨0, _⟩ => rfl | ⟨1, _⟩ => rfl)
  have hr : ∀ k : Fin 128, ridx_main_v33 (ix2 e (0 : Fin 1)) k = ix2 k (0 : Fin 1) := fun k => funext fun a => Fin.ext (by match a with | ⟨0, _⟩ => rfl | ⟨1, _⟩ => rfl)
  simp only [hl, hr, v32_silu]
  rfl

/-- The translation: the coordinate difference times the edge's coefficient (the coefficient's single column read for
    every coordinate), clamped below and then above by the two bounds, in the order `min hi (max lo ·)`. -/
theorem v36_t (e : Fin 800000) (d : Fin 3) :
    val_main_v36 (F := Ideal) x0 x1 x2 x3 x4 x5 x6 x7 x12 x13 x14 (ix2 e d)
      = Cert.Egcl.eT (val_main_v9 (F := Ideal) x0 x2) (val_main_v16 (F := Ideal) x0 x3) x1
          (Cert.Egcl.rowsFrom 128 0 (by omega) x4) (Cert.Egcl.rowsFrom 128 128 (by omega) x4)
          (Cert.Egcl.rowsFrom 1 256 (by omega) x4) x5 x6 x7 x12 x13 x14 e d := by
  rw [val_main_v36_apply, val_main_call3_v4_apply, val_main_call3_v3_apply, val_main_cst_4_apply,
    val_main_call3_v2_apply, val_main_call3_v1_apply, val_main_call3_v0_apply, val_main_cst_3_apply,
    val_main_v35_apply, val_main_v34_apply]
  have hi : idx_main_v34 (ix2 e d) = ix2 e (0 : Fin 1) := funext fun a => Fin.ext (by match a with | ⟨0, _⟩ => rfl | ⟨1, _⟩ => rfl)
  rw [hi, v33_coef]
  rfl

/-- The reference's message array is the layer's message matrix of the gathered rows and the weight's row blocks. -/
theorem ref_m : val_main_v27 (F := Ideal) x0 x1 x2 x3 x4 x5 x6 x7
    = Cert.Egcl.edgeM (val_main_v9 (F := Ideal) x0 x2) (val_main_v16 (F := Ideal) x0 x3) x1
        (Cert.Egcl.rowsFrom 128 0 (by omega) x4) (Cert.Egcl.rowsFrom 128 128 (by omega) x4) (Cert.Egcl.rowsFrom 1 256 (by omega) x4) x5 x6 x7 := by
  funext i
  obtain ⟨p, q, rfl⟩ : ∃ (p : Fin 800000) (q : Fin 128), i = ix2 p q := ⟨i 0, i 1, eq_ix2 i⟩
  exact v27_m x0 x1 x2 x3 x4 x5 x6 x7 p q

/-- The reference's clamped translation array is the layer's translation matrix of the same data. -/
theorem ref_t : val_main_v36 (F := Ideal) x0 x1 x2 x3 x4 x5 x6 x7 x12 x13 x14
    = Cert.Egcl.edgeT (val_main_v9 (F := Ideal) x0 x2) (val_main_v16 (F := Ideal) x0 x3) x1
        (Cert.Egcl.rowsFrom 128 0 (by omega) x4) (Cert.Egcl.rowsFrom 128 128 (by omega) x4) (Cert.Egcl.rowsFrom 1 256 (by omega) x4) x5 x6 x7 x12 x13 x14 := by
  funext i
  obtain ⟨p, q, rfl⟩ : ∃ (p : Fin 800000) (q : Fin 3), i = ix2 p q := ⟨i 0, i 1, eq_ix2 i⟩
  exact v36_t x0 x1 x2 x3 x4 x5 x6 x7 x12 x13 x14 p q

end

end Cert.ReferenceIdeal.RefEdge

end
-- ==== Proof.RefNode.lean ====
/-
  The node stage of the plain reference, read index by index.

  Three results of the reference are identified with the layer's mathematical statement:
  the velocity column   vel = silu (h·Wv1 + bv1) · Wv2 + bv2,
  the updated features  h_out = silu (h·Wh + agg·Wg + bn1) · Wn2 + bn2,
  the mean translation  force_d = fsum_d / max cnt 1.
  The three segment sums (agg, fsum, cnt) are kept as unopened arrays on both sides.
-/
import proofs.«117344_j13692355739802_1_alg».proof.Proof.Gen.ReferenceIdeal.Read
import proofs.«117344_j13692355739802_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefNode

open Idealize.ShloMosaic Idealize.ShloMosaic.TcCoe Idealize.SL.Sem Idealize.ShloMosaic.ValueIdx
open Cert.ReferenceIdeal Cert.ReferenceIdeal.Read
open scoped BigOperators

/-- The activation as the reference spells it, `x · (1 / (1 + e⁻ˣ))` with the float word of one in both places,
    is `x · σ(x)`: the word of one is the number one, and `σ` is defined as that quotient. -/
theorem silu_spelled (x : EReal) :
    x * Ideal.div (Ideal.ofBits .f32 0x3F800000#32) (Ideal.ofBits .f32 0x3F800000#32 + Ideal.exp (-x))
      = Cert.Egcl.silu x := by
  rw [Ideal.ofBits_one_f32]
  rfl

variable (x0 : FVec Ideal S50000x128 .f32) (x1 : FVec Ideal S800000x3 .f32) (x2 x3 : IVec S800000 32)
  (x4 : FVec Ideal S257x128 .f32) (x5 : FVec Ideal S128 .f32) (x6 : FVec Ideal S128x128 .f32) (x7 : FVec Ideal S128 .f32)
  (x8 : FVec Ideal S256x128 .f32) (x9 : FVec Ideal S128 .f32) (x10 : FVec Ideal S128x128 .f32) (x11 : FVec Ideal S128 .f32)
  (x12 : FVec Ideal S128x128 .f32) (x13 : FVec Ideal S128 .f32) (x14 : FVec Ideal S128x1 .f32)
  (x15 : FVec Ideal S128x128 .f32) (x16 : FVec Ideal S128 .f32) (x17 : FVec Ideal S128x1 .f32) (x18 : FVec Ideal S1 .f32)

/-! ## The velocity column -/

/-- The velocity layer before its activation, at node `p` and column `q`: the row of `h` against the column of the
    weight, plus the bias entry of that column. -/
theorem vel_pre (p : Fin 50000) (q : Fin 128) :
    val_main_v63 (F := Ideal) x0 x15 x16 (ix2 p q) = Cert.Egcl.nXv x0 x15 x16 p q := by
  rw [val_main_v63_apply, val_main_v60_apply, val_main_v62_apply, val_main_v61_apply]
  have el : ∀ k : Fin 128, lidx_main_v60 (ix2 p q) k = ix2 p k := fun k =>
    funext fun a => Fin.ext (by match a with | ⟨0, _⟩ => rfl | ⟨1, _⟩ => rfl)
  have er : ∀ k : Fin 128, ridx_main_v60 (ix2 p q) k = ix2 k q := fun k =>
    funext fun a => Fin.ext (by match a with | ⟨0, _⟩ => rfl | ⟨1, _⟩ => rfl)
  have eb : idx_main_v61 (idx_main_v62 (ix2 p q)) = ix1 q :=
    funext fun a => Fin.ext (by match a with | ⟨0, _⟩ => rfl)
  simp only [el, er, eb]
  rfl

/-- The activated velocity layer at node `p`, column `q`. -/
theorem vel_act (p : Fin 50000) (q : Fin 128) :
    val_main_v64 (F := Ideal) x0 x15 x16 (ix2 p q) = Cert.Egcl.silu (Cert.Egcl.nXv x0 x15 x16 p q) := by
  rw [val_main_v64_apply, val_main_call6_v5_apply, val_main_call6_v4_apply, val_main_call6_cst_0_apply,
    val_main_call6_v3_apply, val_main_call6_v2_apply, val_main_call6_cst_apply, val_main_call6_v1_apply,
    val_main_call6_v0_apply, vel_pre]
  exact silu_spelled _

/-- The velocity column of the reference is the layer's velocity scale. -/
theorem ref_vel : val_main_v68 (F := Ideal) x0 x15 x16 x17 x18 = Cert.Egcl.nodeVel x0 x15 x16 x17 x18 := by
  funext i
  obtain ⟨p, q, rfl⟩ : ∃ (p : Fin 50000) (q : Fin 1), i = ix2 p q := ⟨i 0, i 1, eq_ix2 i⟩
  rw [val_main_v68_apply, val_main_v65_apply, val_main_v67_apply, val_main_v66_apply]
  have el : ∀ k : Fin 128, lidx_main_v65 (ix2 p q) k = ix2 p k := fun k =>
    funext fun a => Fin.ext (by match a with | ⟨0, _⟩ => rfl | ⟨1, _⟩ => rfl)
  have er : ∀ k : Fin 128, ridx_main_v65 (ix2 p q) k = ix2 k (0 : Fin 1) := fun k =>
    funext fun a => Fin.ext (by match a with | ⟨0, _⟩ => rfl | ⟨1, _⟩ => exact Fin.val_eq_zero _)
  have eb : idx_main_v66 (idx_main_v67 (ix2 p q)) = ix1 (0 : Fin 1) :=
    funext fun a => Fin.ext (by match a with | ⟨0, _⟩ => rfl)
  simp only [el, er, eb, vel_act]
  rfl

/-! ## The mean translation -/

/-- The mean translation of the reference: the summed translation divided by the in-degree clamped below at one.
    The reference spells the clamp as `max 1 cnt`, the statement as `max cnt 1`; `max` is commutative. -/
theorem ref_force : val_main_v46 (F := Ideal) x0 x1 x2 x3 x4 x5 x6 x7 x12 x13 x14
    = Cert.Egcl.nodeForce (val_main_v39 (F := Ideal) x0 x1 x2 x3 x4 x5 x6 x7 x12 x13 x14) (val_main_v43 (F := Ideal) x2) := by
  funext i
  obtain ⟨p, q, rfl⟩ : ∃ (p : Fin 50000) (q : Fin 3), i = ix2 p q := ⟨i 0, i 1, eq_ix2 i⟩
  rw [val_main_v46_apply, val_main_v45_apply, val_main_v44_apply, val_main_call4_v1_apply, val_main_call4_v0_apply,
    val_main_cst_8_apply]
  generalize val_main_v39 (F := Ideal) x0 x1 x2 x3 x4 x5 x6 x7 x12 x13 x14 = fsum
  generalize val_main_v43 (F := Ideal) x2 = cnt
  have ec : idx_main_v45 (ix2 p q) = ix2 p (0 : Fin 1) :=
    funext fun a => Fin.ext (by match a with | ⟨0, _⟩ => rfl | ⟨1, _⟩ => rfl)
  rw [ec]
  show Ideal.div (fsum (ix2 p q)) (max (Ideal.ofBits .f32 0x3F800000#32) (cnt (ix2 p (0 : Fin 1))))
    = Ideal.div (fsum (ix2 p q)) (max (cnt (ix2 p (0 : Fin 1))) Cert.Egcl.one)
  rw [max_comm]
  rfl

/-! ## The updated features -/

/-- The joined row `[h | agg]` read at a column of its first half is `h` at that column. -/
theorem joined_left (h agg : FVec Ideal S50000x128 .f32) (p : Fin 50000) (k : Fin 128) :
    concatenate S50000x256 1 [⟨S50000x128, h⟩, ⟨S50000x128, agg⟩] Facts₀.concatenates_S50000x128_S50000x128_S50000x256_d1
        (ix2 p (⟨k.val, by omega⟩ : Fin 256)) = h (ix2 p k) :=
  concatenate_pair_apply_left (t := S50000x256) 1 h agg Facts₀.concatenates_S50000x128_S50000x128_S50000x256_d1
    (ix2 p (⟨k.val, by omega⟩ : Fin 256)) rfl (ix2 p k)
    (fun b => match b with | ⟨0, _⟩ => rfl | ⟨1, _⟩ => rfl)

/-- The joined row `[h | agg]` read at column `128 + k` is `agg` at column `k`. -/
theorem joined_right (h agg : FVec Ideal S50000x128 .f32) (p : Fin 50000) (k : Fin 128) :
    concatenate S50000x256 1 [⟨S50000x128, h⟩, ⟨S50000x128, agg⟩] Facts₀.concatenates_S50000x128_S50000x128_S50000x256_d1
        (ix2 p (⟨128 + k.val, by omega⟩ : Fin 256)) = agg (ix2 p k) :=
  concatenate_pair_apply_right (t := S50000x256) 1 h agg Facts₀.concatenates_S50000x128_S50000x128_S50000x256_d1
    (ix2 p (⟨128 + k.val, by omega⟩ : Fin 256)) rfl rfl (ix2 p k)
    (fun b hb => match b, hb with | ⟨0, _⟩, _ => rfl | ⟨1, _⟩, hb => absurd rfl hb)
    (Nat.add_comm k.val 128)

/-- The node layer before its activation, at node `p` and column `q`. The reference contracts the joined row of
    width 256 against the whole weight; the sum over the joined axis is the sum over its first 128 columns (which read
    `h` and the weight's upper block) plus the sum over its last 128 (which read `agg` and the lower block). -/
theorem h_pre (p : Fin 50000) (q : Fin 128) :
    val_main_v54 (F := Ideal) x0 x1 x2 x3 x4 x5 x6 x7 x8 x9 (ix2 p q)
      = Cert.Egcl.nX x0 (val_main_v49 (F := Ideal) x0 x1 x2 x3 x4 x5 x6 x7)
          (Cert.Egcl.rowsFrom 128 0 (by omega) x8) (Cert.Egcl.rowsFrom 128 128 (by omega) x8) x9 p q := by
  rw [val_main_v54_apply, val_main_v51_apply, val_main_v53_apply, val_main_v52_apply]
  unfold val_main_v50
  generalize val_main_v49 (F := Ideal) x0 x1 x2 x3 x4 x5 x6 x7 = agg
  have el : ∀ l : Fin 256, lidx_main_v51 (ix2 p q) l = ix2 p l := fun l =>
    funext fun a => Fin.ext (by match a with | ⟨0, _⟩ => rfl | ⟨1, _⟩ => rfl)
  have er : ∀ l : Fin 256, ridx_main_v51 (ix2 p q) l = ix2 l q := fun l =>
    funext fun a => Fin.ext (by match a with | ⟨0, _⟩ => rfl | ⟨1, _⟩ => rfl)
  have eb : idx_main_v52 (idx_main_v53 (ix2 p q)) = ix1 q :=
    funext fun a => Fin.ext (by match a with | ⟨0, _⟩ => rfl)
  simp only [el, er, eb]
  rw [Cert.Egcl.sum_split256]
  simp only [joined_left, joined_right]
  unfold Cert.Egcl.nX
  refine congrArg₂ (· + ·) (congrArg₂ (· + ·) ?_ ?_) rfl
  · refine Finset.sum_congr rfl fun k _ => ?_
    rw [Cert.Egcl.rowsFrom_apply]
    exact congrArg (fun r : Fin 256 => x0 (ix2 p k) * x8 (ix2 r q)) (Fin.ext (Nat.zero_add _).symm)
  · refine Finset.sum_congr rfl fun k _ => ?_
    rw [Cert.Egcl.rowsFrom_apply]

/-- The activated node layer at node `p`, column `q`. -/
theorem h_act (p : Fin 50000) (q : Fin 128) :
    val_main_v55 (F := Ideal) x0 x1 x2 x3 x4 x5 x6 x7 x8 x9 (ix2 p q)
      = Cert.Egcl.silu (Cert.Egcl.nX x0 (val_main_v49 (F := Ideal) x0 x1 x2 x3 x4 x5 x6 x7)
          (Cert.Egcl.rowsFrom 128 0 (by omega) x8) (Cert.Egcl.rowsFrom 128 128 (by omega) x8) x9 p q) := by
  rw [val_main_v55_apply, val_main_call5_v5_apply, val_main_call5_v4_apply, val_main_call5_cst_0_apply,
    val_main_call5_v3_apply, val_main_call5_v2_apply, val_main_call5_cst_apply, val_main_call5_v1_apply,
    val_main_call5_v0_apply, h_pre]
  exact silu_spelled _

/-- The updated features of the reference are the layer's. -/
theorem ref_h : val_main_v59 (F := Ideal) x0 x1 x2 x3 x4 x5 x6 x7 x8 x9 x10 x11
    = Cert.Egcl.nodeH x0 (val_main_v49 (F := Ideal) x0 x1 x2 x3 x4 x5 x6 x7)
        (Cert.Egcl.rowsFrom 128 0 (by omega) x8) (Cert.Egcl.rowsFrom 128 128 (by omega) x8) x9 x10 x11 := by
  funext i
  obtain ⟨p, q, rfl⟩ : ∃ (p : Fin 50000) (q : Fin 128), i = ix2 p q := ⟨i 0, i 1, eq_ix2 i⟩
  rw [val_main_v59_apply, val_main_v56_apply, val_main_v58_apply, val_main_v57_apply]
  have el : ∀ k : Fin 128, lidx_main_v56 (ix2 p q) k = ix2 p k := fun k =>
    funext fun a => Fin.ext (by match a with | ⟨0, _⟩ => rfl | ⟨1, _⟩ => rfl)
  have er : ∀ k : Fin 128, ridx_main_v56 (ix2 p q) k = ix2 k q := fun k =>
    funext fun a => Fin.ext (by match a with | ⟨0, _⟩ => rfl | ⟨1, _⟩ => rfl)
  have eb : idx_main_v57 (idx_main_v58 (ix2 p q)) = ix1 q :=
    funext fun a => Fin.ext (by match a with | ⟨0, _⟩ => rfl)
  simp only [el, er, eb, h_act]
  rfl

end Cert.ReferenceIdeal.RefNode

end
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.SegCols.lean ====
/-
  One scatter-add of four columns against two scatter-adds of three columns and of one.

  The per-edge translations form an 800000 × 3 matrix `T`. Glue a column of ones to its right, giving an
  800000 × 4 matrix, and add its rows into a zero 50000 × 4 matrix at the edges' row numbers. Read at `(n, k)`
  that sum is zero plus the sum, over the edges `e` whose row number is `n`, of entry `(e, k)` of the glued matrix.

  Columns 0, 1, 2 of the glued matrix are the columns of `T`, so the left three columns of the sum are the
  scatter-add of `T` alone into a zero 50000 × 3 matrix. Column 3 of the glued matrix is the ones column,
  so column 3 of the sum is the scatter-add of the ones into a zero 50000 × 1 matrix: the in-degree.

  Both sides are read entry by entry: a column cut reads its source at the shifted column, a row
  scatter-add reads as operand entry plus a sum over the edges landing on that row, a scalar spread over a
  matrix reads as that scalar everywhere, and the glued matrix reads its left or right piece by where the column falls.
-/
import proofs.«117344_j13692355739802_1_alg».proof.Proof.Gen.ReferenceIdeal.Read
import proofs.«117344_j13692355739802_1_alg».proof.Proof.Gen.KernelIdeal
import proofs.«117344_j13692355739802_1_alg».proof.Proof.Spec
import proofs.«117344_j13692355739802_1_alg».proof.Proof.LibRows
import Idealize.ShloMosaic.Lib.ValueLayout
import Idealize.ShloMosaic.Lib.Pipeline.Value
noncomputable section
open scoped BigOperators
namespace Cert.SegCols
open Idealize.ShloMosaic Idealize.ShloMosaic.TcCoe Idealize.SL.Sem Idealize.ShloMosaic.ValueIdx
open Cert.ReferenceIdeal Cert.ReferenceIdeal.Read

/-! ## Entry-wise readings, at any sizes -/

/-- The row scatter-add of extended reals read at `(n, c)`: the operand's entry plus the sum of column `c` over the
    update rows whose row number is `n`. -/
theorem host_rows2 {N C E w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c) = x (ix2 n c)
      + ∑ e ∈ Finset.univ.filter (fun e : Fin E => (idx (ix2 e (0 : Fin 1))).toInt = (n.val : Int)), upd (ix2 e c) :=
  Cert.LibRows.scatterAdd_rows2 d huw hiw hsd hivd x idx upd n c

/-- Two matrices glued along their columns, read at a column inside the left one, give the left one's entry. -/
theorem glue_left {E a b t : Nat} (X : (⟨2, ![E, a]⟩ : Shape).Idx → EReal) (Y : (⟨2, ![E, b]⟩ : Shape).Idx → EReal)
    (h : Shape.Concatenates [⟨2, ![E, a]⟩, ⟨2, ![E, b]⟩] ⟨2, ![E, t]⟩ 1)
    (e : Fin E) (k : Fin t) (c : Fin a) (hk : c.val = k.val) :
    concatenate ⟨2, ![E, t]⟩ 1 [⟨⟨2, ![E, a]⟩, X⟩, ⟨⟨2, ![E, b]⟩, Y⟩] h (ix2 e k) = X (ix2 e c) :=
  concatenate_pair_apply_left 1 X Y h (ix2 e k) rfl (ix2 e c) (fun ax => by
    match ax with
    | ⟨0, _⟩ => rfl
    | ⟨1, _⟩ => exact hk)

/-- Read at a column past the left one, they give the right one's entry, the column counted from the left one's width. -/
theorem glue_right {E a b t : Nat} (X : (⟨2, ![E, a]⟩ : Shape).Idx → EReal) (Y : (⟨2, ![E, b]⟩ : Shape).Idx → EReal)
    (h : Shape.Concatenates [⟨2, ![E, a]⟩, ⟨2, ![E, b]⟩] ⟨2, ![E, t]⟩ 1)
    (e : Fin E) (k : Fin t) (c : Fin b) (hk : c.val + a = k.val) :
    concatenate ⟨2, ![E, t]⟩ 1 [⟨⟨2, ![E, a]⟩, X⟩, ⟨⟨2, ![E, b]⟩, Y⟩] h (ix2 e k) = Y (ix2 e c) :=
  concatenate_pair_apply_right 1 X Y h (ix2 e k) rfl rfl (ix2 e c) (fun ax hax => by
    match ax, hax with
    | ⟨0, _⟩, _ => rfl
    | ⟨1, _⟩, hax => exact absurd rfl hax) hk

/-- A scalar word spread over a matrix reads as that word's value at every entry. -/
theorem spread_apply {N C : Nat} (hb : (⟨0, ![]⟩ : Shape).BroadcastsInDim ⟨2, ![N, C]⟩ (![] : Fin 0 → Fin 2))
    (b : BitVec 32) (i : (⟨2, ![N, C]⟩ : Shape).Idx) :
    broadcastInDim ⟨2, ![N, C]⟩ ![] hb (constant (F := Ideal) ⟨0, ![]⟩ .f32 b) i = Ideal.ofBits .f32 b :=
  broadcastInDim_apply _ hb _ i (fun a => a.elim0) (fun a => a.elim0)

/-! ## The two column blocks of the fused sum -/

section Seg
variable (idx : IVec ⟨2, ![800000, 1]⟩ 32) (T : Cert.Egcl.M2 800000 3)

/-- The four-column sum: the translations with a ones column glued on, added by rows into a zero 50000 × 4 matrix. -/
abbrev fused : FVec Ideal Cert.KernelIdeal.S50000x4 .f32 :=
  Host.scatterAdd Cert.KernelIdeal.scatter_S50000x4_S800000x1_S800000x4_1_0_0_1
    (broadcastInDim Cert.KernelIdeal.S50000x4 ![] Cert.KernelIdeal.Facts₀.bcast_S_S50000x4 (constant (F := Ideal) Cert.KernelIdeal.S_ .f32 0x00000000#32)) idx
    (concatenate Cert.KernelIdeal.S800000x4 1 [⟨Cert.KernelIdeal.S800000x3, T⟩, ⟨Cert.KernelIdeal.S800000x1, broadcastInDim Cert.KernelIdeal.S800000x1 ![] Cert.KernelIdeal.Facts₀.bcast_S_S800000x1 (constant (F := Ideal) Cert.KernelIdeal.S_ .f32 0x3F800000#32)⟩] Cert.KernelIdeal.Facts₀.concatenates_S800000x3_S800000x1_S800000x4_d1)

/-- Columns 0 to 2 of the four-column sum are the row scatter-add of the translations alone. -/
theorem fsum_fused : extractStridedSlice Cert.KernelIdeal.S50000x3 ![0, 0] (fused idx T) Cert.KernelIdeal.Facts₀.slices_S50000x4_S50000x3_0_0
    = Host.scatterAdd scatter_S50000x3_S800000x1_S800000x3_1_0_0_1 (val_main_v37 (F := Ideal)) idx T := by
  funext i
  obtain ⟨n, c, rfl⟩ : ∃ (n : Fin 50000) (c : Fin 3), i = ix2 n c := ⟨i 0, i 1, eq_ix2 i⟩
  -- the cut reads the four-column sum at the same column
  rw [slice2_axis1_apply 0 (fused idx T) Cert.KernelIdeal.Facts₀.slices_S50000x4_S50000x3_0_0 n c
    (⟨c.val, by omega⟩ : Fin 4) (by simp)]
  -- both sums entry by entry
  unfold fused
  rw [host_rows2 Cert.KernelIdeal.scatter_S50000x4_S800000x1_S800000x4_1_0_0_1 rfl rfl rfl rfl,
    host_rows2 scatter_S50000x3_S800000x1_S800000x3_1_0_0_1 rfl rfl rfl rfl]
  refine congrArg₂ (· + ·) ?_ ?_
  · -- both operands are the zero word everywhere
    rw [spread_apply, val_main_v37_apply]
    rfl
  · -- under the sum, a column of the glued matrix left of 3 is a column of the translations
    refine Finset.sum_congr rfl fun e _ => ?_
    exact glue_left T _ _ e _ c rfl

/-- Column 3 of the four-column sum is the row scatter-add of the ones column: the in-degree. -/
theorem cnt_fused : extractStridedSlice Cert.KernelIdeal.S50000x1 ![0, 3] (fused idx T) Cert.KernelIdeal.Facts₀.slices_S50000x4_S50000x1_0_3
    = Host.scatterAdd scatter_S50000x1_S800000x1_S800000x1_1_0_0_1 (val_main_v41 (F := Ideal)) idx (val_main_v40 (F := Ideal)) := by
  funext i
  obtain ⟨n, c, rfl⟩ : ∃ (n : Fin 50000) (c : Fin 1), i = ix2 n c := ⟨i 0, i 1, eq_ix2 i⟩
  -- the cut reads the four-column sum at column 3
  rw [slice2_axis1_apply 3 (fused idx T) Cert.KernelIdeal.Facts₀.slices_S50000x4_S50000x1_0_3 n c
    (⟨3 + c.val, by omega⟩ : Fin 4) rfl]
  unfold fused
  rw [host_rows2 Cert.KernelIdeal.scatter_S50000x4_S800000x1_S800000x4_1_0_0_1 rfl rfl rfl rfl,
    host_rows2 scatter_S50000x1_S800000x1_S800000x1_1_0_0_1 rfl rfl rfl rfl]
  refine congrArg₂ (· + ·) ?_ ?_
  · -- both operands are the zero word everywhere
    rw [spread_apply, val_main_v41_apply]
    rfl
  · -- under the sum, column 3 of the glued matrix is the ones column
    refine Finset.sum_congr rfl fun e _ => ?_
    rw [glue_right T _ _ e _ c (Nat.add_comm _ _), spread_apply, val_main_v40_apply]
    rfl
end Seg
end Cert.SegCols
end
-- ==== Proof.Bridge.lean ====
/-
  The kernel program's composed values are the reference's.

  Over any argument arrays, the message matrix the edge stage computes from the gathered endpoint rows and the cut
  weight is the reference's message stage, and likewise the clamped translations: the gathers and the cuts are the
  same operations under two spellings, and the stage itself is one function of them on both sides. The updated
  features then agree because both programs segment-sum that one message matrix with the same scatter-add and
  apply the same node layer to it; the mean translations agree because the fused four-column segment sum, cut
  into its first three columns and its last, is the reference's two separate segment sums.
-/
import proofs.«117344_j13692355739802_1_alg».proof.Proof.Cross
import proofs.«117344_j13692355739802_1_alg».proof.Proof.RefEdge
import proofs.«117344_j13692355739802_1_alg».proof.Proof.RefNode
import proofs.«117344_j13692355739802_1_alg».proof.Proof.SegCols

noncomputable section

namespace Cert.Bridge

open Idealize.ShloMosaic Idealize.ShloMosaic.ValueIdx
open Cert.KernelIdeal.HostValue
open Cert.ReferenceIdeal.Read

variable (x0 : FVec Ideal Cert.ReferenceIdeal.S50000x128 .f32) (x1 : FVec Ideal Cert.ReferenceIdeal.S800000x3 .f32) (x2 x3 : IVec Cert.ReferenceIdeal.S800000 32)
  (x4 : FVec Ideal Cert.ReferenceIdeal.S257x128 .f32) (x5 : FVec Ideal Cert.ReferenceIdeal.S128 .f32) (x6 : FVec Ideal Cert.ReferenceIdeal.S128x128 .f32) (x7 : FVec Ideal Cert.ReferenceIdeal.S128 .f32)
  (x8 : FVec Ideal Cert.ReferenceIdeal.S256x128 .f32) (x9 : FVec Ideal Cert.ReferenceIdeal.S128 .f32) (x10 : FVec Ideal Cert.ReferenceIdeal.S128x128 .f32) (x11 : FVec Ideal Cert.ReferenceIdeal.S128 .f32)
  (x12 : FVec Ideal Cert.ReferenceIdeal.S128x128 .f32) (x13 : FVec Ideal Cert.ReferenceIdeal.S128 .f32) (x14 : FVec Ideal Cert.ReferenceIdeal.S128x1 .f32)

/-- The edge stage's messages, from the kernel program's gathers and cuts, are the reference's message stage. -/
theorem msgs_ref :
    Cert.Egcl.edgeM (Host.gather Cert.KernelIdeal.gather_S50000x128_S800000x1_S800000x128_1_0_n_n_0_1_1128 x0 (wrapCol (F := Ideal) x2)) (Host.gather Cert.KernelIdeal.gather_S50000x128_S800000x1_S800000x128_1_0_n_n_0_1_1128 x0 (wrapCol (F := Ideal) x3)) x1
        (extractStridedSlice Cert.KernelIdeal.S128x128 ![0, 0] x4 Cert.KernelIdeal.Facts₀.slices_S257x128_S128x128_0_0) (extractStridedSlice Cert.KernelIdeal.S128x128 ![128, 0] x4 Cert.KernelIdeal.Facts₀.slices_S257x128_S128x128_128_0)
        (extractStridedSlice Cert.KernelIdeal.S1x128 ![256, 0] x4 Cert.KernelIdeal.Facts₀.slices_S257x128_S1x128_256_0) x5 x6 x7
      = val_main_v27 (F := Ideal) x0 x1 x2 x3 x4 x5 x6 x7 := by
  rw [Cert.ReferenceIdeal.RefEdge.ref_m, Cert.Cross.gather_first, Cert.Cross.gather_second,
    Cert.Cross.slice_rows _ (by omega : 0 + 128 ≤ 257) x4, Cert.Cross.slice_rows _ (by omega : 128 + 128 ≤ 257) x4,
    Cert.Cross.slice_rows _ (by omega : 256 + 1 ≤ 257) x4]

/-- The edge stage's clamped translations likewise. -/
theorem trans_ref :
    Cert.Egcl.edgeT (Host.gather Cert.KernelIdeal.gather_S50000x128_S800000x1_S800000x128_1_0_n_n_0_1_1128 x0 (wrapCol (F := Ideal) x2)) (Host.gather Cert.KernelIdeal.gather_S50000x128_S800000x1_S800000x128_1_0_n_n_0_1_1128 x0 (wrapCol (F := Ideal) x3)) x1
        (extractStridedSlice Cert.KernelIdeal.S128x128 ![0, 0] x4 Cert.KernelIdeal.Facts₀.slices_S257x128_S128x128_0_0) (extractStridedSlice Cert.KernelIdeal.S128x128 ![128, 0] x4 Cert.KernelIdeal.Facts₀.slices_S257x128_S128x128_128_0)
        (extractStridedSlice Cert.KernelIdeal.S1x128 ![256, 0] x4 Cert.KernelIdeal.Facts₀.slices_S257x128_S1x128_256_0) x5 x6 x7 x12 x13 x14
      = val_main_v36 (F := Ideal) x0 x1 x2 x3 x4 x5 x6 x7 x12 x13 x14 := by
  rw [Cert.ReferenceIdeal.RefEdge.ref_t, Cert.Cross.gather_first, Cert.Cross.gather_second,
    Cert.Cross.slice_rows _ (by omega : 0 + 128 ≤ 257) x4, Cert.Cross.slice_rows _ (by omega : 128 + 128 ≤ 257) x4,
    Cert.Cross.slice_rows _ (by omega : 256 + 1 ≤ 257) x4]

/-- The updated features: the same node layer over the same segment sum of the same messages. -/
theorem h_ref :
    Cert.Egcl.nodeH x0
        (Host.scatterAdd Cert.KernelIdeal.scatter_S50000x128_S800000x1_S800000x128_1_0_0_1
          (broadcastInDim Cert.KernelIdeal.S50000x128 ![] Cert.KernelIdeal.Facts₀.bcast_S_S50000x128 (constant (F := Ideal) Cert.KernelIdeal.S_ .f32 0x00000000#32))
          (rawCol (F := Ideal) x2)
          (Cert.Egcl.edgeM (Host.gather Cert.KernelIdeal.gather_S50000x128_S800000x1_S800000x128_1_0_n_n_0_1_1128 x0 (wrapCol (F := Ideal) x2)) (Host.gather Cert.KernelIdeal.gather_S50000x128_S800000x1_S800000x128_1_0_n_n_0_1_1128 x0 (wrapCol (F := Ideal) x3)) x1
        (extractStridedSlice Cert.KernelIdeal.S128x128 ![0, 0] x4 Cert.KernelIdeal.Facts₀.slices_S257x128_S128x128_0_0) (extractStridedSlice Cert.KernelIdeal.S128x128 ![128, 0] x4 Cert.KernelIdeal.Facts₀.slices_S257x128_S128x128_128_0)
        (extractStridedSlice Cert.KernelIdeal.S1x128 ![256, 0] x4 Cert.KernelIdeal.Facts₀.slices_S257x128_S1x128_256_0) x5 x6 x7))
        (extractStridedSlice Cert.KernelIdeal.S128x128 ![0, 0] x8 Cert.KernelIdeal.Facts₀.slices_S256x128_S128x128_0_0) (extractStridedSlice Cert.KernelIdeal.S128x128 ![128, 0] x8 Cert.KernelIdeal.Facts₀.slices_S256x128_S128x128_128_0) x9 x10 x11
      = val_main_v59 (F := Ideal) x0 x1 x2 x3 x4 x5 x6 x7 x8 x9 x10 x11 := by
  rw [Cert.ReferenceIdeal.RefNode.ref_h, msgs_ref, Cert.Cross.agg_eq, Cert.Cross.raw48,
    Cert.Cross.slice_rows _ (by omega : 0 + 128 ≤ 256) x8, Cert.Cross.slice_rows _ (by omega : 128 + 128 ≤ 256) x8]
  rfl

/-- The mean translations: the fused four-column segment sum, cut, is the two separate segment sums. -/
theorem force_ref :
    Cert.Egcl.nodeForce
        (extractStridedSlice Cert.KernelIdeal.S50000x3 ![0, 0]
          (fusedSum (F := Ideal) (rawCol (F := Ideal) x2) (Cert.Egcl.edgeT (Host.gather Cert.KernelIdeal.gather_S50000x128_S800000x1_S800000x128_1_0_n_n_0_1_1128 x0 (wrapCol (F := Ideal) x2)) (Host.gather Cert.KernelIdeal.gather_S50000x128_S800000x1_S800000x128_1_0_n_n_0_1_1128 x0 (wrapCol (F := Ideal) x3)) x1
        (extractStridedSlice Cert.KernelIdeal.S128x128 ![0, 0] x4 Cert.KernelIdeal.Facts₀.slices_S257x128_S128x128_0_0) (extractStridedSlice Cert.KernelIdeal.S128x128 ![128, 0] x4 Cert.KernelIdeal.Facts₀.slices_S257x128_S128x128_128_0)
        (extractStridedSlice Cert.KernelIdeal.S1x128 ![256, 0] x4 Cert.KernelIdeal.Facts₀.slices_S257x128_S1x128_256_0) x5 x6 x7 x12 x13 x14))
          Cert.KernelIdeal.Facts₀.slices_S50000x4_S50000x3_0_0)
        (extractStridedSlice Cert.KernelIdeal.S50000x1 ![0, 3]
          (fusedSum (F := Ideal) (rawCol (F := Ideal) x2) (Cert.Egcl.edgeT (Host.gather Cert.KernelIdeal.gather_S50000x128_S800000x1_S800000x128_1_0_n_n_0_1_1128 x0 (wrapCol (F := Ideal) x2)) (Host.gather Cert.KernelIdeal.gather_S50000x128_S800000x1_S800000x128_1_0_n_n_0_1_1128 x0 (wrapCol (F := Ideal) x3)) x1
        (extractStridedSlice Cert.KernelIdeal.S128x128 ![0, 0] x4 Cert.KernelIdeal.Facts₀.slices_S257x128_S128x128_0_0) (extractStridedSlice Cert.KernelIdeal.S128x128 ![128, 0] x4 Cert.KernelIdeal.Facts₀.slices_S257x128_S128x128_128_0)
        (extractStridedSlice Cert.KernelIdeal.S1x128 ![256, 0] x4 Cert.KernelIdeal.Facts₀.slices_S257x128_S1x128_256_0) x5 x6 x7 x12 x13 x14))
          Cert.KernelIdeal.Facts₀.slices_S50000x4_S50000x1_0_3)
      = val_main_v46 (F := Ideal) x0 x1 x2 x3 x4 x5 x6 x7 x12 x13 x14 := by
  rw [Cert.ReferenceIdeal.RefNode.ref_force, trans_ref]
  have hf := Cert.SegCols.fsum_fused (rawCol (F := Ideal) x2) (val_main_v36 (F := Ideal) x0 x1 x2 x3 x4 x5 x6 x7 x12 x13 x14)
  have hc := Cert.SegCols.cnt_fused (rawCol (F := Ideal) x2) (val_main_v36 (F := Ideal) x0 x1 x2 x3 x4 x5 x6 x7 x12 x13 x14)
  exact congrArg₂ Cert.Egcl.nodeForce hf hc

end Cert.Bridge

end
-- ==== Proof.lean ====
/-
  One E(n)-equivariant graph layer: the two-kernel program against its plain reference, over the extended reals.

  Per edge, both programs compute from the two endpoint feature rows and the coordinate difference a message
  `m = silu (silu x₁ · We2 + be2)` and a clamped translation, where `silu x = x · σ(x)`. The kernel writes
  `σ` as one logistic operation and the reference as `1 / (1 + e⁻ˣ)`: at the extended reals these are one
  function by definition, with `σ(-∞) = 0` and `σ(+∞) = 1`. The reference multiplies the concatenated 257-vector
  `[h_row | h_col | radial]` by the whole first weight; the kernel multiplies the two rows by the weight's two
  128-row blocks and the squared length by its last row and adds: a sum over 257 indices regrouped, which needs only
  that addition of extended reals is commutative and associative, so no finiteness of the inputs is used.

  Per node, both programs sum the messages and the translations of the incoming edges. The kernel program sums the
  translations and a column of ones in one four-column segment sum and cuts it; the reference sums them separately;
  entry by entry both are the sum over the edges whose row number is the node. The node layer again splits one
  product over 256 indices into two blocks of 128. The mean translation divides by `max cnt 1`, written with its
  operands in the other order on the other side.

  The kernel program's run is its two regions and the host operations around them, each region's output arrays
  read block by block as one function of the arrays the region was entered with; the reference's run is a straight
  line of host operations read one at a time. Both are then the same functions of the argument arrays.
-/
import proofs.«117344_j13692355739802_1_alg».proof.Defs
import proofs.«117344_j13692355739802_1_alg».proof.Proof.Gen.Kernel
import proofs.«117344_j13692355739802_1_alg».proof.Proof.Gen.Kernel.Frame
import proofs.«117344_j13692355739802_1_alg».proof.Proof.Gen.KernelIdeal
import proofs.«117344_j13692355739802_1_alg».proof.Proof.Gen.KernelIdeal.Frame
import proofs.«117344_j13692355739802_1_alg».proof.Proof.Gen.ReferenceIdeal
import proofs.«117344_j13692355739802_1_alg».proof.Proof.Gen.ReferenceIdeal.Run
import proofs.«117344_j13692355739802_1_alg».proof.Proof.Gen.ReferenceIdeal.Read
import proofs.«117344_j13692355739802_1_alg».proof.Proof.Gen.Pre_finite_inputs
import proofs.«117344_j13692355739802_1_alg».proof.Proof.KRun
import proofs.«117344_j13692355739802_1_alg».proof.Proof.KValue
import proofs.«117344_j13692355739802_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and returns its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing: the ledger is empty. -/
theorem preserves : Cert.preserves_Kernel_KernelIdeal := trivial

/-- From memories agreeing on the arguments both programs end with the same velocity column, mean translations and
    updated features. -/
theorem algebraic : Cert.algebraic_KernelIdeal_ReferenceIdeal := by
  intro m ρ m' ρ' _ hagree
  refine ⟨fun c => Cert.KernelIdeal.Gen.W4 m ρ c (Proc.devRef .tc Cert.KernelIdeal.main_v30_0),
    fun c => Cert.KernelIdeal.Gen.W4 m ρ c (Proc.devRef .tc Cert.KernelIdeal.main_v30_1),
    fun c => Cert.KernelIdeal.Gen.W4 m ρ c (Proc.devRef .tc Cert.KernelIdeal.main_v30_2),
    Cert.KernelIdeal.GenR.run_results (F := Ideal) m ρ, ?_⟩
  refine (θ_run Cert.ReferenceIdeal.defs _ _).mono (fun r h c => ?_) (Cert.ReferenceIdeal.Value.run (F := Ideal) m' ρ')
  obtain ⟨h0, h1, h2, hargs⟩ := h c
  obtain ⟨e0, e1, e2, e3, e4, e5, e6, e7, e8, e9, e10, e11, e12, e13, e14, e15, e16, e17, e18⟩ := hagree c
  refine ⟨h0.trans ?_, h1.trans ?_, h2.trans ?_, hargs⟩
  · -- the velocity column
    rw [e0, e15, e16, e17, e18]
    exact ((Cert.ReferenceIdeal.Read.val_main_v68_eq (F := Ideal) _ _ _ _ _).trans
      (Cert.ReferenceIdeal.RefNode.ref_vel _ _ _ _ _)).trans (Cert.KernelIdeal.KValue.vel_eq m ρ c).symm
  · -- the mean translations
    rw [Cert.ReferenceIdeal.Read.val_main_v46_eq (F := Ideal) m' c, e0, e1, e2, e3, e4, e5, e6, e7, e12, e13, e14]
    exact (Cert.Bridge.force_ref _ _ _ _ _ _ _ _ _ _ _).symm.trans (Cert.KernelIdeal.KValue.force_eq m ρ c).symm
  · -- the updated features
    rw [Cert.ReferenceIdeal.Read.val_main_v59_eq (F := Ideal) m' c, e0, e1, e2, e3, e4, e5, e6, e7, e8, e9, e10, e11]
    exact (Cert.Bridge.h_ref _ _ _ _ _ _ _ _ _ _ _ _).symm.trans (Cert.KernelIdeal.KValue.h_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
